-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)) →
    ∃ (v0 : (c : Dev Cert.KernelIdeal.nD) → Buf (Elt Ideal) ((c.tc : Thread Cert.KernelIdeal.nD Cert.KernelIdeal.τ).loc Cert.KernelIdeal.main_v39)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v39) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v56) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S100000x64 : Shape := ⟨2, ![100000, 64]⟩
abbrev S2x1280000 : Shape := ⟨2, ![2, 1280000]⟩
abbrev S128x64 : Shape := ⟨2, ![128, 64]⟩
abbrev S128 : Shape := ⟨1, ![128]⟩
abbrev S64x128 : Shape := ⟨2, ![64, 128]⟩
abbrev S64 : Shape := ⟨1, ![64]⟩
abbrev S_ : Shape := ⟨0, ![]⟩

class Facts : Prop where
  bcast_S_S100000x64 : S_.BroadcastsInDim S100000x64 (![] : Fin 0 → Fin S100000x64.rank)
  reducesTo_S100000x64_S_d0_1 : S100000x64.ReducesTo [0, 1] S_
  h_S_ : 0 < S_.numel
  bcast_S_S128x64 : S_.BroadcastsInDim S128x64 (![] : Fin 0 → Fin S128x64.rank)
  reducesTo_S128x64_S_d0_1 : S128x64.ReducesTo [0, 1] S_
  bcast_S_S128 : S_.BroadcastsInDim S128 (![] : Fin 0 → Fin S128.rank)
  reducesTo_S128_S_d0 : S128.ReducesTo [0] S_
  bcast_S_S64x128 : S_.BroadcastsInDim S64x128 (![] : Fin 0 → Fin S64x128.rank)
  reducesTo_S64x128_S_d0_1 : S64x128.ReducesTo [0, 1] S_
  bcast_S_S64 : S_.BroadcastsInDim S64 (![] : Fin 0 → Fin S64.rank)
  reducesTo_S64_S_d0 : S64.ReducesTo [0] S_

variable [Facts]

def fn_part1 {F : FTy → Type} [FloatOps F] (main_arg5 : FVec F S64x128 .f32) (main_arg6 : FVec F S64 .f32) (main_arg7 : FVec F S64x128 .f32) (main_v13 : IVec S_ 1) (main_v16 : IVec S128x64 1) : IVec S_ 1 :=
  let main_c_5 : IVec S_ 1 := constantI S_ 1 1#1
  let main_v17 : IVec S_ 1 := (fun x v => Host.reduce IntOp.andi x v reducesTo_S128x64_S_d0_1 h_S_) main_v16 main_c_5
  let main_v18 : IVec S_ 1 := andi main_v13 main_v17
  let main_v19 : FVec F S64x128 .f32 := Host.absf main_arg5
  let main_cst_6 : FVec F S_ .f32 := constant S_ .f32 0x7F800000#32
  let main_v20 : FVec F S64x128 .f32 := broadcastInDim S64x128 ![] bcast_S_S64x128 main_cst_6
  let main_v21 : IVec S64x128 1 := cmpf .olt main_v19 main_v20
  let main_c_7 : IVec S_ 1 := constantI S_ 1 1#1
  let main_v22 : IVec S_ 1 := (fun x v => Host.reduce IntOp.andi x v reducesTo_S64x128_S_d0_1 h_S_) main_v21 main_c_7
  let main_v23 : IVec S_ 1 := andi main_v18 main_v22
  let main_v24 : FVec F S64 .f32 := Host.absf main_arg6
  let main_cst_8 : FVec F S_ .f32 := constant S_ .f32 0x7F800000#32
  let main_v25 : FVec F S64 .f32 := broadcastInDim S64 ![] bcast_S_S64 main_cst_8
  let main_v26 : IVec S64 1 := cmpf .olt main_v24 main_v25
  let main_c_9 : IVec S_ 1 := constantI S_ 1 1#1
  let main_v27 : IVec S_ 1 := (fun x v => Host.reduce IntOp.andi x v reducesTo_S64_S_d0 h_S_) main_v26 main_c_9
  let main_v28 : IVec S_ 1 := andi main_v23 main_v27
  let main_v29 : FVec F S64x128 .f32 := Host.absf main_arg7
  let main_cst_10 : FVec F S_ .f32 := constant S_ .f32 0x7F800000#32
  let main_v30 : FVec F S64x128 .f32 := broadcastInDim S64x128 ![] bcast_S_S64x128 main_cst_10
  let main_v31 : IVec S64x128 1 := cmpf .olt main_v29 main_v30
  let main_c_11 : IVec S_ 1 := constantI S_ 1 1#1
  let main_v32 : IVec S_ 1 := (fun x v => Host.reduce IntOp.andi x v reducesTo_S64x128_S_d0_1 h_S_) main_v31 main_c_11
  let main_v33 : IVec S_ 1 := andi main_v28 main_v32
  main_v33

def fn {F : FTy → Type} [FloatOps F] (main_arg0 : FVec F S100000x64 .f32) (main_arg1 : IVec S2x1280000 32) (main_arg2 : FVec F S128x64 .f32) (main_arg3 : FVec F S128 .f32) (main_arg4 : FVec F S128x64 .f32) (main_arg5 : FVec F S64x128 .f32) (main_arg6 : FVec F S64 .f32) (main_arg7 : FVec F S64x128 .f32) : IVec S_ 1 :=
  let main_v0 : FVec F S100000x64 .f32 := Host.absf main_arg0
  let main_cst : FVec F S_ .f32 := constant S_ .f32 0x7F800000#32
  let main_v1 : FVec F S100000x64 .f32 := broadcastInDim S100000x64 ![] bcast_S_S100000x64 main_cst
  let main_v2 : IVec S100000x64 1 := cmpf .olt main_v0 main_v1
  let main_c : IVec S_ 1 := constantI S_ 1 1#1
  let main_v3 : IVec S_ 1 := (fun x v => Host.reduce IntOp.andi x v reducesTo_S100000x64_S_d0_1 h_S_) main_v2 main_c
  let main_v4 : FVec F S128x64 .f32 := Host.absf main_arg2
  let main_cst_0 : FVec F S_ .f32 := constant S_ .f32 0x7F800000#32
  let main_v5 : FVec F S128x64 .f32 := broadcastInDim S128x64 ![] bcast_S_S128x64 main_cst_0
  let main_v6 : IVec S128x64 1 := cmpf .olt main_v4 main_v5
  let main_c_1 : IVec S_ 1 := constantI S_ 1 1#1
  let main_v7 : IVec S_ 1 := (fun x v => Host.reduce IntOp.andi x v reducesTo_S128x64_S_d0_1 h_S_) main_v6 main_c_1
  let main_v8 : IVec S_ 1 := andi main_v3 main_v7
  let main_v9 : FVec F S128 .f32 := Host.absf main_arg3
  let main_cst_2 : FVec F S_ .f32 := constant S_ .f32 0x7F800000#32
  let main_v10 : FVec F S128 .f32 := broadcastInDim S128 ![] bcast_S_S128 main_cst_2
  let main_v11 : IVec S128 1 := cmpf .olt main_v9 main_v10
  let main_c_3 : IVec S_ 1 := constantI S_ 1 1#1
  let main_v12 : IVec S_ 1 := (fun x v => Host.reduce IntOp.andi x v reducesTo_S128_S_d0 h_S_) main_v11 main_c_3
  let main_v13 : IVec S_ 1 := andi main_v8 main_v12
  let main_v14 : FVec F S128x64 .f32 := Host.absf main_arg4
  let main_cst_4 : FVec F S_ .f32 := constant S_ .f32 0x7F800000#32
  let main_v15 : FVec F S128x64 .f32 := broadcastInDim S128x64 ![] bcast_S_S128x64 main_cst_4
  let main_v16 : IVec S128x64 1 := cmpf .olt main_v14 main_v15
  fn_part1 (F := F) main_arg5 main_arg6 main_arg7 main_v13 main_v16
-- ==== Kernel.lean ====
abbrev S100000x64 : Shape := ⟨2, ![100000, 64]⟩
abbrev S2x1280000 : Shape := ⟨2, ![2, 1280000]⟩
abbrev S128x64 : Shape := ⟨2, ![128, 64]⟩
abbrev S128 : Shape := ⟨1, ![128]⟩
abbrev S64x128 : Shape := ⟨2, ![64, 128]⟩
abbrev S64 : Shape := ⟨1, ![64]⟩
abbrev S1x1280000 : Shape := ⟨2, ![1, 1280000]⟩
abbrev S1280000 : Shape := ⟨1, ![1280000]⟩
abbrev S_ : Shape := ⟨0, ![]⟩
abbrev S1280000x1 : Shape := ⟨2, ![1280000, 1]⟩
abbrev S100000x1 : Shape := ⟨2, ![100000, 1]⟩
abbrev S1280000x64 : Shape := ⟨2, ![1280000, 64]⟩
abbrev S1x128 : Shape := ⟨2, ![1, 128]⟩
abbrev S100000x128 : Shape := ⟨2, ![100000, 128]⟩
abbrev S5000x64 : Shape := ⟨2, ![5000, 64]⟩
abbrev S5000x128 : Shape := ⟨2, ![5000, 128]⟩
abbrev S1280000x128 : Shape := ⟨2, ![1280000, 128]⟩
abbrev S1x64 : Shape := ⟨2, ![1, 64]⟩

abbrev nBuf : Space → Nat
  | .hbm => 58
  | .vmem => 18
  | .smem => 0
  | _ => 0

abbrev bufTy : (tb : Table) → Fin (tcTables nBuf tb) → BufTy
  | .hbm, ⟨0, _⟩ => ⟨S100000x64, .f32⟩
  | .hbm, ⟨1, _⟩ => ⟨S2x1280000, .i32⟩
  | .hbm, ⟨2, _⟩ => ⟨S128x64, .f32⟩
  | .hbm, ⟨3, _⟩ => ⟨S128, .f32⟩
  | .hbm, ⟨4, _⟩ => ⟨S128x64, .f32⟩
  | .hbm, ⟨5, _⟩ => ⟨S64x128, .f32⟩
  | .hbm, ⟨6, _⟩ => ⟨S64, .f32⟩
  | .hbm, ⟨7, _⟩ => ⟨S64x128, .f32⟩
  | .hbm, ⟨8, _⟩ => ⟨S1x1280000, .i32⟩
  | .hbm, ⟨9, _⟩ => ⟨S1280000, .i32⟩
  | .hbm, ⟨10, _⟩ => ⟨S1x1280000, .i32⟩
  | .hbm, ⟨11, _⟩ => ⟨S1280000, .i32⟩
  | .hbm, ⟨12, _⟩ => ⟨S_, .f32⟩
  | .hbm, ⟨13, _⟩ => ⟨S1280000x1, .f32⟩
  | .hbm, ⟨14, _⟩ => ⟨S_, .f32⟩
  | .hbm, ⟨15, _⟩ => ⟨S100000x1, .f32⟩
  | .hbm, ⟨16, _⟩ => ⟨S1280000x1, .i32⟩
  | .hbm, ⟨17, _⟩ => ⟨S100000x1, .f32⟩
  | .hbm, ⟨18, _⟩ => ⟨S_, .f32⟩
  | .hbm, ⟨19, _⟩ => ⟨S100000x1, .f32⟩
  | .hbm, ⟨20, _⟩ => ⟨S100000x1, .f32⟩
  | .hbm, ⟨21, _⟩ => ⟨S_, .f32⟩
  | .hbm, ⟨22, _⟩ => ⟨S100000x1, .f32⟩
  | .hbm, ⟨23, _⟩ => ⟨S100000x1, .f32⟩
  | .hbm, ⟨24, _⟩ => ⟨S_, .i32⟩
  | .hbm, ⟨25, _⟩ => ⟨S1280000, .i32⟩
  | .hbm, ⟨26, _⟩ => ⟨S1280000, .i1⟩
  | .hbm, ⟨27, _⟩ => ⟨S_, .i32⟩
  | .hbm, ⟨28, _⟩ => ⟨S1280000, .i32⟩
  | .hbm, ⟨29, _⟩ => ⟨S1280000, .i32⟩
  | .hbm, ⟨30, _⟩ => ⟨S1280000, .i32⟩
  | .hbm, ⟨31, _⟩ => ⟨S1280000x1, .i32⟩
  | .hbm, ⟨32, _⟩ => ⟨S1280000x64, .f32⟩
  | .hbm, ⟨33, _⟩ => ⟨S_, .f32⟩
  | .hbm, ⟨34, _⟩ => ⟨S100000x64, .f32⟩
  | .hbm, ⟨35, _⟩ => ⟨S1280000x1, .i32⟩
  | .hbm, ⟨36, _⟩ => ⟨S100000x64, .f32⟩
  | .hbm, ⟨37, _⟩ => ⟨S100000x64, .f32⟩
  | .hbm, ⟨38, _⟩ => ⟨S100000x64, .f32⟩
  | .hbm, ⟨39, _⟩ => ⟨S1x128, .f32⟩
  | .hbm, ⟨40, _⟩ => ⟨S100000x128, .f32⟩
  | .hbm, ⟨41, _⟩ => ⟨S_, .i32⟩
  | .hbm, ⟨42, _⟩ => ⟨S1280000, .i32⟩
  | .hbm, ⟨43, _⟩ => ⟨S1280000, .i1⟩
  | .hbm, ⟨44, _⟩ => ⟨S_, .i32⟩
  | .hbm, ⟨45, _⟩ => ⟨S1280000, .i32⟩
  | .hbm, ⟨46, _⟩ => ⟨S1280000, .i32⟩
  | .hbm, ⟨47, _⟩ => ⟨S1280000, .i32⟩
  | .hbm, ⟨48, _⟩ => ⟨S1280000x1, .i32⟩
  | .hbm, ⟨49, _⟩ => ⟨S1280000x128, .f32⟩
  | .hbm, ⟨50, _⟩ => ⟨S_, .f32⟩
  | .hbm, ⟨51, _⟩ => ⟨S100000x128, .f32⟩
  | .hbm, ⟨52, _⟩ => ⟨S1280000x1, .i32⟩
  | .hbm, ⟨53, _⟩ => ⟨S100000x128, .f32⟩
  | .hbm, ⟨54, _⟩ => ⟨S100000x128, .f32⟩
  | .hbm, ⟨55, _⟩ => ⟨S100000x128, .f32⟩
  | .hbm, ⟨56, _⟩ => ⟨S1x64, .f32⟩
  | .hbm, ⟨57, _⟩ => ⟨S100000x64, .f32⟩
  | .local _ .vmem, ⟨0, _⟩ => ⟨S5000x64, .f32⟩
  | .local _ .vmem, ⟨1, _⟩ => ⟨S5000x64, .f32⟩
  | .local _ .vmem, ⟨2, _⟩ => ⟨S5000x64, .f32⟩
  | .local _ .vmem, ⟨3, _⟩ => ⟨S5000x64, .f32⟩
  | .local _ .vmem, ⟨4, _⟩ => ⟨S128x64, .f32⟩
  | .local _ .vmem, ⟨5, _⟩ => ⟨S1x128, .f32⟩
  | .local _ .vmem, ⟨6, _⟩ => ⟨S128x64, .f32⟩
  | .local _ .vmem, ⟨7, _⟩ => ⟨S5000x128, .f32⟩
  | .local _ .vmem, ⟨8, _⟩ => ⟨S5000x128, .f32⟩
  | .local _ .vmem, ⟨9, _⟩ => ⟨S5000x128, .f32⟩
  | .local _ .vmem, ⟨10, _⟩ => ⟨S5000x128, .f32⟩
  | .local _ .vmem, ⟨11, _⟩ => ⟨S5000x128, .f32⟩
  | .local _ .vmem, ⟨12, _⟩ => ⟨S5000x128, .f32⟩
  | .local _ .vmem, ⟨13, _⟩ => ⟨S64x128, .f32⟩
  | .local _ .vmem, ⟨14, _⟩ => ⟨S1x64, .f32⟩
  | .local _ .vmem, ⟨15, _⟩ => ⟨S64x128, .f32⟩
  | .local _ .vmem, ⟨16, _⟩ => ⟨S5000x64, .f32⟩
  | .local _ .vmem, ⟨17, _⟩ => ⟨S5000x64, .f32⟩
  | _, _ => ⟨S100000x64, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | _, _ => false

abbrev semScoped : Fin 0 → Bool
  | ⟨_, h⟩ => absurd h (Nat.not_lt_zero _)

abbrev dmaSemScoped : Fin 18 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | _ => false

abbrev sig : RefSig :=
  ofTc nBuf bufTy 0 18 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_cst : Ref sig .tc := ⟨.hbm, 12, rfl⟩
abbrev main_v4 : Ref sig .tc := ⟨.hbm, 13, rfl⟩
abbrev main_cst_0 : Ref sig .tc := ⟨.hbm, 14, rfl⟩
abbrev main_v5 : Ref sig .tc := ⟨.hbm, 15, rfl⟩
abbrev main_v6 : Ref sig .tc := ⟨.hbm, 16, rfl⟩
abbrev main_v7 : Ref sig .tc := ⟨.hbm, 17, rfl⟩
abbrev main_cst_1 : Ref sig .tc := ⟨.hbm, 18, rfl⟩
abbrev main_v8 : Ref sig .tc := ⟨.hbm, 19, rfl⟩
abbrev main_v9 : Ref sig .tc := ⟨.hbm, 20, rfl⟩
abbrev main_cst_2 : Ref sig .tc := ⟨.hbm, 21, rfl⟩
abbrev main_v10 : Ref sig .tc := ⟨.hbm, 22, rfl⟩
abbrev main_v11 : Ref sig .tc := ⟨.hbm, 23, rfl⟩
abbrev main_c : Ref sig .tc := ⟨.hbm, 24, rfl⟩
abbrev main_v12 : Ref sig .tc := ⟨.hbm, 25, rfl⟩
abbrev main_v13 : Ref sig .tc := ⟨.hbm, 26, rfl⟩
abbrev main_c_3 : Ref sig .tc := ⟨.hbm, 27, rfl⟩
abbrev main_v14 : Ref sig .tc := ⟨.hbm, 28, rfl⟩
abbrev main_v15 : Ref sig .tc := ⟨.hbm, 29, rfl⟩
abbrev main_v16 : Ref sig .tc := ⟨.hbm, 30, rfl⟩
abbrev main_v17 : Ref sig .tc := ⟨.hbm, 31, rfl⟩
abbrev main_v18 : Ref sig .tc := ⟨.hbm, 32, rfl⟩
abbrev main_cst_4 : Ref sig .tc := ⟨.hbm, 33, rfl⟩
abbrev main_v19 : Ref sig .tc := ⟨.hbm, 34, rfl⟩
abbrev main_v20 : Ref sig .tc := ⟨.hbm, 35, rfl⟩
abbrev main_v21 : Ref sig .tc := ⟨.hbm, 36, rfl⟩
abbrev main_v22 : Ref sig .tc := ⟨.hbm, 37, rfl⟩
abbrev main_v23 : Ref sig .tc := ⟨.hbm, 38, rfl⟩
abbrev main_v24 : Ref sig .tc := ⟨.hbm, 39, rfl⟩
abbrev main_v25 : Ref sig .tc := ⟨.hbm, 40, rfl⟩
abbrev main_c_5 : Ref sig .tc := ⟨.hbm, 41, rfl⟩
abbrev main_v26 : Ref sig .tc := ⟨.hbm, 42, rfl⟩
abbrev main_v27 : Ref sig .tc := ⟨.hbm, 43, rfl⟩
abbrev main_c_6 : Ref sig .tc := ⟨.hbm, 44, rfl⟩
abbrev main_v28 : Ref sig .tc := ⟨.hbm, 45, rfl⟩
abbrev main_v29 : Ref sig .tc := ⟨.hbm, 46, rfl⟩
abbrev main_v30 : Ref sig .tc := ⟨.hbm, 47, rfl⟩
abbrev main_v31 : Ref sig .tc := ⟨.hbm, 48, rfl⟩
abbrev main_v32 : Ref sig .tc := ⟨.hbm, 49, rfl⟩
abbrev main_cst_7 : Ref sig .tc := ⟨.hbm, 50, rfl⟩
abbrev main_v33 : Ref sig .tc := ⟨.hbm, 51, rfl⟩
abbrev main_v34 : Ref sig .tc := ⟨.hbm, 52, rfl⟩
abbrev main_v35 : Ref sig .tc := ⟨.hbm, 53, rfl⟩
abbrev main_v36 : Ref sig .tc := ⟨.hbm, 54, rfl⟩
abbrev main_v37 : Ref sig .tc := ⟨.hbm, 55, rfl⟩
abbrev main_v38 : Ref sig .tc := ⟨.hbm, 56, rfl⟩
abbrev main_v39 : Ref sig .tc := ⟨.hbm, 57, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg5_1 : Ref sig .tc := ⟨.vmem, 8, rfl⟩
abbrev cc1_stg0_0 : Ref sig .tc := ⟨.vmem, 9, rfl⟩
abbrev cc1_stg0_1 : Ref sig .tc := ⟨.vmem, 10, rfl⟩
abbrev cc1_stg1_0 : Ref sig .tc := ⟨.vmem, 11, rfl⟩
abbrev cc1_stg1_1 : Ref sig .tc := ⟨.vmem, 12, rfl⟩
abbrev cc1_stg2_0 : Ref sig .tc := ⟨.vmem, 13, rfl⟩
abbrev cc1_stg3_0 : Ref sig .tc := ⟨.vmem, 14, rfl⟩
abbrev cc1_stg4_0 : Ref sig .tc := ⟨.vmem, 15, rfl⟩
abbrev cc1_stg5_0 : Ref sig .tc := ⟨.vmem, 16, rfl⟩
abbrev cc1_stg5_1 : Ref sig .tc := ⟨.vmem, 17, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem5_1 : DmaSem sig := 8
abbrev cc1_sem0_0 : DmaSem sig := 9
abbrev cc1_sem0_1 : DmaSem sig := 10
abbrev cc1_sem1_0 : DmaSem sig := 11
abbrev cc1_sem1_1 : DmaSem sig := 12
abbrev cc1_sem2_0 : DmaSem sig := 13
abbrev cc1_sem3_0 : DmaSem sig := 14
abbrev cc1_sem4_0 : DmaSem sig := 15
abbrev cc1_sem5_0 : DmaSem sig := 16
abbrev cc1_sem5_1 : DmaSem sig := 17

abbrev nD : Nat := 1
abbrev τ : Topo := Topo.v7x

variable {F : FTy → Type} [FloatOps F]

abbrev grid0 : Pipeline.Grid := ⟨1, ![20], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S5000x64 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S5000x64 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S128x64 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S128x64 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S5000x128 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev grid1 : Pipeline.Grid := ⟨1, ![20], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_5 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S5000x128 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S5000x128 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 1 → Memref sig .tc .vmem S64x128 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 1 → Memref sig .tc .vmem S1x64 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 1 → Memref sig .tc .vmem S64x128 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false]

abbrev stage1_5 : Fin 2 → Memref sig .tc .vmem S5000x64 .f32 := fun | 0 => Memref.whole cc1_stg5_0 | 1 => Memref.whole cc1_stg5_1 | ⟨_ + 2, h⟩ => absurd h (Nat.not_lt.2 (Nat.le_add_left _ _))
abbrev sem1_5 : Fin 2 → DmaSem sig := fun | 0 => cc1_sem5_0 | 1 => cc1_sem5_1 | ⟨_ + 2, h⟩ => absurd h (Nat.not_lt.2 (Nat.le_add_left _ _))
abbrev reads1_5 : Fin grid1.rank → Bool := ![true]

class Facts₀ : Prop where
  slices_S2x1280000_S1x1280000_0_0 : S2x1280000.Slices ![0, 0] S1x1280000
  shapeCasts_S1x1280000_S1280000 : S1x1280000.ShapeCasts S1280000
  slices_S2x1280000_S1x1280000_1_0 : S2x1280000.Slices ![1, 0] S1x1280000
  bcast_S_S1280000x1 : S_.BroadcastsInDim S1280000x1 (![] : Fin 0 → Fin S1280000x1.rank)
  bcast_S_S100000x1 : S_.BroadcastsInDim S100000x1 (![] : Fin 0 → Fin S100000x1.rank)
  bcast_S1280000_S1280000x1_0 : S1280000.BroadcastsInDim S1280000x1 (![0] : Fin 1 → Fin S1280000x1.rank)
  bcast_S_S1280000 : S_.BroadcastsInDim S1280000 (![] : Fin 0 → Fin S1280000.rank)
  bcast_S_S100000x64 : S_.BroadcastsInDim S100000x64 (![] : Fin 0 → Fin S100000x64.rank)
  bcast_S100000x1_S100000x64_0_1 : S100000x1.BroadcastsInDim S100000x64 (![0, 1] : Fin 2 → Fin S100000x64.rank)
  shapeCasts_S128_S1x128 : S128.ShapeCasts S1x128
  inb_S5000x64_S5000x64_0_0 : ∀ a, (![0, 0] : Fin 2 → Nat) a + S5000x64.size a ≤ S5000x64.size a
  h_S5000x64 : 0 < S5000x64.numel
  shapeCasts_S5000x64_S5000x64 : S5000x64.ShapeCasts S5000x64
  bitsLt_bf16_f32 : FTy.bits .bf16 < FTy.bits .f32
  inb_S128x64_S128x64_0_0 : ∀ a, (![0, 0] : Fin 2 → Nat) a + S128x64.size a ≤ S128x64.size a
  h_S128x64 : 0 < S128x64.numel
  transposes_S128x64_p1_0_S64x128 : S128x64.Transposes [1, 0] S64x128
  inb_S1x128_S1x128_0_0 : ∀ a, (![0, 0] : Fin 2 → Nat) a + S1x128.size a ≤ S1x128.size a
  h_S1x128 : 0 < S1x128.numel
  shapeCasts_S1x128_S1x128 : S1x128.ShapeCasts S1x128
  broadcasts_S1x128_S5000x128 : S1x128.Broadcasts S5000x128
  inb_S5000x128_S5000x128_0_0 : ∀ a, (![0, 0] : Fin 2 → Nat) a + S5000x128.size a ≤ S5000x128.size a
  h_S5000x128 : 0 < S5000x128.numel
  bcast_S_S100000x128 : S_.BroadcastsInDim S100000x128 (![] : Fin 0 → Fin S100000x128.rank)
  bcast_S100000x1_S100000x128_0_1 : S100000x1.BroadcastsInDim S100000x128 (![0, 1] : Fin 2 → Fin S100000x128.rank)
  shapeCasts_S64_S1x64 : S64.ShapeCasts S1x64
  shapeCasts_S5000x128_S5000x128 : S5000x128.ShapeCasts S5000x128
  inb_S64x128_S64x128_0_0 : ∀ a, (![0, 0] : Fin 2 → Nat) a + S64x128.size a ≤ S64x128.size a
  h_S64x128 : 0 < S64x128.numel
  transposes_S64x128_p1_0_S128x64 : S64x128.Transposes [1, 0] S128x64
  inb_S1x64_S1x64_0_0 : ∀ a, (![0, 0] : Fin 2 → Nat) a + S1x64.size a ≤ S1x64.size a
  h_S1x64 : 0 < S1x64.numel
  shapeCasts_S1x64_S1x64 : S1x64.ShapeCasts S1x64
  broadcasts_S1x64_S5000x64 : S1x64.Broadcasts S5000x64
  scatter_S100000x1_S1280000x1_S1280000x1_1_0_0_1_wf : ScatterDims.WF S100000x1 S1280000x1 S1280000x1 [1] [0] [0] 1
  gather_S100000x64_S1280000x1_S1280000x64_1_0_n_n_0_1_164_wf : GatherDims.WF S100000x64 S1280000x1 S1280000x64 [1] [0] [] [0] [] 1 ![1, 64]
  scatter_S100000x64_S1280000x1_S1280000x64_1_0_0_1_wf : ScatterDims.WF S100000x64 S1280000x1 S1280000x64 [1] [0] [0] 1
  dot_S5000x64_S64x128_S5000x128_1_0_0_1_n_n_wf : DotDims.WF S5000x64 S64x128 S5000x128 [1] [0] [0] [1] [] []
  gather_S100000x128_S1280000x1_S1280000x128_1_0_n_n_0_1_1128_wf : GatherDims.WF S100000x128 S1280000x1 S1280000x128 [1] [0] [] [0] [] 1 ![1, 128]
  scatter_S100000x128_S1280000x1_S1280000x128_1_0_0_1_wf : ScatterDims.WF S100000x128 S1280000x1 S1280000x128 [1] [0] [0] 1
  dot_S5000x128_S128x64_S5000x64_1_0_0_1_n_n_wf : DotDims.WF S5000x128 S128x64 S5000x64 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S5000x64.size a ≤ S100000x64.size a
  hwx0_0 : ∀ i : grid0.Coords, EltTy.bits .f32 = 32 ∨ (Rect.block (s := S100000x64) S5000x64.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S5000x64.size a ≤ S100000x64.size a
  hwx0_1 : ∀ i : grid0.Coords, EltTy.bits .f32 = 32 ∨ (Rect.block (s := S100000x64) S5000x64.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S128x64.size a ≤ S128x64.size a
  hwx0_2 : ∀ i : grid0.Coords, EltTy.bits .f32 = 32 ∨ (Rect.block (s := S128x64) S128x64.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S1x128.size a ≤ S1x128.size a
  hwx0_3 : ∀ i : grid0.Coords, EltTy.bits .f32 = 32 ∨ (Rect.block (s := S1x128) S1x128.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S128x64.size a ≤ S128x64.size a
  hwx0_4 : ∀ i : grid0.Coords, EltTy.bits .f32 = 32 ∨ (Rect.block (s := S128x64) S128x64.size (cc0_transform_4 i) (hinb0_4 i)).WholeWords (EltTy.packing .f32)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S5000x128.size a ≤ S100000x128.size a
  hwx0_5 : ∀ i : grid0.Coords, EltTy.bits .f32 = 32 ∨ (Rect.block (s := S100000x128) S5000x128.size (cc0_transform_5 i) (hinb0_5 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S5000x128.size a ≤ S100000x128.size a
  hwx1_0 : ∀ i : grid1.Coords, EltTy.bits .f32 = 32 ∨ (Rect.block (s := S100000x128) S5000x128.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S5000x128.size a ≤ S100000x128.size a
  hwx1_1 : ∀ i : grid1.Coords, EltTy.bits .f32 = 32 ∨ (Rect.block (s := S100000x128) S5000x128.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S64x128.size a ≤ S64x128.size a
  hwx1_2 : ∀ i : grid1.Coords, EltTy.bits .f32 = 32 ∨ (Rect.block (s := S64x128) S64x128.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S1x64.size a ≤ S1x64.size a
  hwx1_3 : ∀ i : grid1.Coords, EltTy.bits .f32 = 32 ∨ (Rect.block (s := S1x64) S1x64.size (cc1_transform_3 i) (hinb1_3 i)).WholeWords (EltTy.packing .f32)
  hstage1_4 : ∀ j, (stage1_4 j).IsWhole
  nbuf1_4 : grid1.bufCount reads1_4 true = 1
  hreads1_4 : ∀ i i' : grid1.Coords, (∀ a, reads1_4 a = true → i a = i' a) → cc1_transform_4 i = cc1_transform_4 i'
  hinb1_4 : ∀ (i : grid1.Coords) a, (cc1_transform_4 i a + 1) * S64x128.size a ≤ S64x128.size a
  hwx1_4 : ∀ i : grid1.Coords, EltTy.bits .f32 = 32 ∨ (Rect.block (s := S64x128) S64x128.size (cc1_transform_4 i) (hinb1_4 i)).WholeWords (EltTy.packing .f32)
  hstage1_5 : ∀ j, (stage1_5 j).IsWhole
  nbuf1_5 : grid1.bufCount reads1_5 false = 2
  hreads1_5 : ∀ i i' : grid1.Coords, (∀ a, reads1_5 a = true → i a = i' a) → cc1_transform_5 i = cc1_transform_5 i'
  hinb1_5 : ∀ (i : grid1.Coords) a, (cc1_transform_5 i a + 1) * S5000x64.size a ≤ S100000x64.size a
  hwx1_5 : ∀ i : grid1.Coords, EltTy.bits .f32 = 32 ∨ (Rect.block (s := S100000x64) S5000x64.size (cc1_transform_5 i) (hinb1_5 i)).WholeWords (EltTy.packing .f32)

variable [Facts₀]

def scatter_S100000x1_S1280000x1_S1280000x1_1_0_0_1 : ScatterDims S100000x1 S1280000x1 S1280000x1 where
  updateWindowDims := [1]
  insertedWindowDims := [0]
  scatterDimsToOperandDims := [0]
  indexVectorDim := 1
  wf := scatter_S100000x1_S1280000x1_S1280000x1_1_0_0_1_wf
def gather_S100000x64_S1280000x1_S1280000x64_1_0_n_n_0_1_164 : GatherDims S100000x64 S1280000x1 S1280000x64 where
  offsetDims := [1]
  collapsedSliceDims := [0]
  operandBatchingDims := []
  startIndicesBatchingDims := []
  startIndexMap := [0]
  indexVectorDim := 1
  sliceSizes := ![1, 64]
  wf := gather_S100000x64_S1280000x1_S1280000x64_1_0_n_n_0_1_164_wf
def scatter_S100000x64_S1280000x1_S1280000x64_1_0_0_1 : ScatterDims S100000x64 S1280000x1 S1280000x64 where
  updateWindowDims := [1]
  insertedWindowDims := [0]
  scatterDimsToOperandDims := [0]
  indexVectorDim := 1
  wf := scatter_S100000x64_S1280000x1_S1280000x64_1_0_0_1_wf
def dot_S5000x64_S64x128_S5000x128_1_0_0_1_n_n : DotDims S5000x64 S64x128 S5000x128 where
  lhsContracting := [1]
  rhsContracting := [0]
  lhsNonContracting := [0]
  rhsNonContracting := [1]
  lhsBatch := []
  rhsBatch := []
  wf := dot_S5000x64_S64x128_S5000x128_1_0_0_1_n_n_wf
def gather_S100000x128_S1280000x1_S1280000x128_1_0_n_n_0_1_1128 : GatherDims S100000x128 S1280000x1 S1280000x128 where
  offsetDims := [1]
  collapsedSliceDims := [0]
  operandBatchingDims := []
  startIndicesBatchingDims := []
  startIndexMap := [0]
  indexVectorDim := 1
  sliceSizes := ![1, 128]
  wf := gather_S100000x128_S1280000x1_S1280000x128_1_0_n_n_0_1_1128_wf
def scatter_S100000x128_S1280000x1_S1280000x128_1_0_0_1 : ScatterDims S100000x128 S1280000x1 S1280000x128 where
  updateWindowDims := [1]
  insertedWindowDims := [0]
  scatterDimsToOperandDims := [0]
  indexVectorDim := 1
  wf := scatter_S100000x128_S1280000x1_S1280000x128_1_0_0_1_wf
def dot_S5000x128_S128x64_S5000x64_1_0_0_1_n_n : DotDims S5000x128 S128x64 S5000x64 where
  lhsContracting := [1]
  rhsContracting := [0]
  lhsNonContracting := [0]
  rhsNonContracting := [1]
  lhsBatch := []
  rhsBatch := []
  wf := dot_S5000x128_S128x64_S5000x64_1_0_0_1_n_n_wf

abbrev win0_0 : Pipeline.Window sig grid0 :=
  Pipeline.Window.ofSpec (Memref.whole main_v23) S5000x64.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg0) S5000x64.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_arg2) S128x64.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v24) S1x128.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_arg4) S128x64.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v25) S5000x128.size cc0_transform_5 reads0_5 true false 2 stage0_5 sem0_5
    hrank0 hreads0_5 hinb0_5 nbuf0_5 (Memref.isWhole_whole _) hwx0_5 hstage0_5

abbrev win0 : Fin 6 → Pipeline.Window sig grid0 := fun | 0 => win0_0 | 1 => win0_1 | 2 => win0_2 | 3 => win0_3 | 4 => win0_4 | 5 => win0_5 | ⟨_ + 6, h⟩ => absurd h (Nat.not_lt.2 (Nat.le_add_left _ _))
abbrev spec0 : Fin 6 → Pipeline.WinSpec sig grid0.rank := fun w => (win0 w).toWinSpec

abbrev win1_0 : Pipeline.Window sig grid1 :=
  Pipeline.Window.ofSpec (Memref.whole main_v37) S5000x128.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v25) S5000x128.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_arg5) S64x128.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_v38) S1x64.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_arg7) S64x128.size cc1_transform_4 reads1_4 false true 1 stage1_4 sem1_4
    hrank1 hreads1_4 hinb1_4 nbuf1_4 (Memref.isWhole_whole _) hwx1_4 hstage1_4

abbrev win1_5 : Pipeline.Window sig grid1 :=
  Pipeline.Window.ofSpec (Memref.whole main_v39) S5000x64.size cc1_transform_5 reads1_5 true false 2 stage1_5 sem1_5
    hrank1 hreads1_5 hinb1_5 nbuf1_5 (Memref.isWhole_whole _) hwx1_5 hstage1_5

abbrev win1 : Fin 6 → Pipeline.Window sig grid1 := fun | 0 => win1_0 | 1 => win1_1 | 2 => win1_2 | 3 => win1_3 | 4 => win1_4 | 5 => win1_5 | ⟨_ + 6, h⟩ => absurd h (Nat.not_lt.2 (Nat.le_add_left _ _))
abbrev spec1 : Fin 6 → Pipeline.WinSpec sig grid1.rank := fun w => (win1 w).toWinSpec

class Facts : Prop extends Facts₀ where

variable [Facts]
-- ==== ReferenceIdeal.lean ====
abbrev S100000x64 : Shape := ⟨2, ![100000, 64]⟩
abbrev S2x1280000 : Shape := ⟨2, ![2, 1280000]⟩
abbrev S128x64 : Shape := ⟨2, ![128, 64]⟩
abbrev S128 : Shape := ⟨1, ![128]⟩
abbrev S64x128 : Shape := ⟨2, ![64, 128]⟩
abbrev S64 : Shape := ⟨1, ![64]⟩
abbrev S1x1280000 : Shape := ⟨2, ![1, 1280000]⟩
abbrev S1280000 : Shape := ⟨1, ![1280000]⟩
abbrev S_ : Shape := ⟨0, ![]⟩
abbrev S1280000x1 : Shape := ⟨2, ![1280000, 1]⟩
abbrev S1280000x64 : Shape := ⟨2, ![1280000, 64]⟩
abbrev S100000x1 : Shape := ⟨2, ![100000, 1]⟩
abbrev S100000x128 : Shape := ⟨2, ![100000, 128]⟩
abbrev S1x128 : Shape := ⟨2, ![1, 128]⟩
abbrev S1280000x128 : Shape := ⟨2, ![1280000, 128]⟩
abbrev S1x64 : Shape := ⟨2, ![1, 64]⟩

abbrev nBuf : Space → Nat
  | .hbm => 79
  | .vmem => 0
  | .smem => 0
  | _ => 0

abbrev bufTy : (tb : Table) → Fin (tcTables nBuf tb) → BufTy
  | .hbm, ⟨0, _⟩ => ⟨S100000x64, .f32⟩
  | .hbm, ⟨1, _⟩ => ⟨S2x1280000, .i32⟩
  | .hbm, ⟨2, _⟩ => ⟨S128x64, .f32⟩
  | .hbm, ⟨3, _⟩ => ⟨S128, .f32⟩
  | .hbm, ⟨4, _⟩ => ⟨S128x64, .f32⟩
  | .hbm, ⟨5, _⟩ => ⟨S64x128, .f32⟩
  | .hbm, ⟨6, _⟩ => ⟨S64, .f32⟩
  | .hbm, ⟨7, _⟩ => ⟨S64x128, .f32⟩
  | .hbm, ⟨8, _⟩ => ⟨S1x1280000, .i32⟩
  | .hbm, ⟨9, _⟩ => ⟨S1280000, .i32⟩
  | .hbm, ⟨10, _⟩ => ⟨S1x1280000, .i32⟩
  | .hbm, ⟨11, _⟩ => ⟨S1280000, .i32⟩
  | .hbm, ⟨12, _⟩ => ⟨S_, .i32⟩
  | .hbm, ⟨13, _⟩ => ⟨S1280000, .i32⟩
  | .hbm, ⟨14, _⟩ => ⟨S1280000, .i1⟩
  | .hbm, ⟨15, _⟩ => ⟨S_, .i32⟩
  | .hbm, ⟨16, _⟩ => ⟨S1280000, .i32⟩
  | .hbm, ⟨17, _⟩ => ⟨S1280000, .i32⟩
  | .hbm, ⟨18, _⟩ => ⟨S1280000, .i32⟩
  | .hbm, ⟨19, _⟩ => ⟨S1280000x1, .i32⟩
  | .hbm, ⟨20, _⟩ => ⟨S1280000x64, .f32⟩
  | .hbm, ⟨21, _⟩ => ⟨S_, .f32⟩
  | .hbm, ⟨22, _⟩ => ⟨S100000x64, .f32⟩
  | .hbm, ⟨23, _⟩ => ⟨S1280000x1, .i32⟩
  | .hbm, ⟨24, _⟩ => ⟨S100000x64, .f32⟩
  | .hbm, ⟨25, _⟩ => ⟨S_, .f32⟩
  | .hbm, ⟨26, _⟩ => ⟨S1280000x1, .f32⟩
  | .hbm, ⟨27, _⟩ => ⟨S_, .f32⟩
  | .hbm, ⟨28, _⟩ => ⟨S100000x1, .f32⟩
  | .hbm, ⟨29, _⟩ => ⟨S1280000x1, .i32⟩
  | .hbm, ⟨30, _⟩ => ⟨S100000x1, .f32⟩
  | .hbm, ⟨31, _⟩ => ⟨S_, .f32⟩
  | .hbm, ⟨32, _⟩ => ⟨S100000x1, .f32⟩
  | .hbm, ⟨33, _⟩ => ⟨S100000x1, .f32⟩
  | .hbm, ⟨34, _⟩ => ⟨S100000x64, .f32⟩
  | .hbm, ⟨35, _⟩ => ⟨S100000x64, .f32⟩
  | .hbm, ⟨36, _⟩ => ⟨S64x128, .f32⟩
  | .hbm, ⟨37, _⟩ => ⟨S100000x128, .f32⟩
  | .hbm, ⟨38, _⟩ => ⟨S1x128, .f32⟩
  | .hbm, ⟨39, _⟩ => ⟨S100000x128, .f32⟩
  | .hbm, ⟨40, _⟩ => ⟨S100000x128, .f32⟩
  | .hbm, ⟨41, _⟩ => ⟨S64x128, .f32⟩
  | .hbm, ⟨42, _⟩ => ⟨S100000x128, .f32⟩
  | .hbm, ⟨43, _⟩ => ⟨S100000x128, .f32⟩
  | .hbm, ⟨44, _⟩ => ⟨S_, .f32⟩
  | .hbm, ⟨45, _⟩ => ⟨S100000x128, .f32⟩
  | .hbm, ⟨46, _⟩ => ⟨S100000x128, .f32⟩
  | .hbm, ⟨47, _⟩ => ⟨S_, .i32⟩
  | .hbm, ⟨48, _⟩ => ⟨S1280000, .i32⟩
  | .hbm, ⟨49, _⟩ => ⟨S1280000, .i1⟩
  | .hbm, ⟨50, _⟩ => ⟨S_, .i32⟩
  | .hbm, ⟨51, _⟩ => ⟨S1280000, .i32⟩
  | .hbm, ⟨52, _⟩ => ⟨S1280000, .i32⟩
  | .hbm, ⟨53, _⟩ => ⟨S1280000, .i32⟩
  | .hbm, ⟨54, _⟩ => ⟨S1280000x1, .i32⟩
  | .hbm, ⟨55, _⟩ => ⟨S1280000x128, .f32⟩
  | .hbm, ⟨56, _⟩ => ⟨S_, .f32⟩
  | .hbm, ⟨57, _⟩ => ⟨S100000x128, .f32⟩
  | .hbm, ⟨58, _⟩ => ⟨S1280000x1, .i32⟩
  | .hbm, ⟨59, _⟩ => ⟨S100000x128, .f32⟩
  | .hbm, ⟨60, _⟩ => ⟨S_, .f32⟩
  | .hbm, ⟨61, _⟩ => ⟨S1280000x1, .f32⟩
  | .hbm, ⟨62, _⟩ => ⟨S_, .f32⟩
  | .hbm, ⟨63, _⟩ => ⟨S100000x1, .f32⟩
  | .hbm, ⟨64, _⟩ => ⟨S1280000x1, .i32⟩
  | .hbm, ⟨65, _⟩ => ⟨S100000x1, .f32⟩
  | .hbm, ⟨66, _⟩ => ⟨S_, .f32⟩
  | .hbm, ⟨67, _⟩ => ⟨S100000x1, .f32⟩
  | .hbm, ⟨68, _⟩ => ⟨S100000x1, .f32⟩
  | .hbm, ⟨69, _⟩ => ⟨S100000x128, .f32⟩
  | .hbm, ⟨70, _⟩ => ⟨S100000x128, .f32⟩
  | .hbm, ⟨71, _⟩ => ⟨S128x64, .f32⟩
  | .hbm, ⟨72, _⟩ => ⟨S100000x64, .f32⟩
  | .hbm, ⟨73, _⟩ => ⟨S1x64, .f32⟩
  | .hbm, ⟨74, _⟩ => ⟨S100000x64, .f32⟩
  | .hbm, ⟨75, _⟩ => ⟨S100000x64, .f32⟩
  | .hbm, ⟨76, _⟩ => ⟨S128x64, .f32⟩
  | .hbm, ⟨77, _⟩ => ⟨S100000x64, .f32⟩
  | .hbm, ⟨78, _⟩ => ⟨S100000x64, .f32⟩
  | _, _ => ⟨S100000x64, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_c : Ref sig .tc := ⟨.hbm, 12, rfl⟩
abbrev main_v4 : Ref sig .tc := ⟨.hbm, 13, rfl⟩
abbrev main_v5 : Ref sig .tc := ⟨.hbm, 14, rfl⟩
abbrev main_c_0 : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_cst : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev main_cst_1 : Ref sig .tc := ⟨.hbm, 25, rfl⟩
abbrev main_v14 : Ref sig .tc := ⟨.hbm, 26, rfl⟩
abbrev main_cst_2 : Ref sig .tc := ⟨.hbm, 27, rfl⟩
abbrev main_v15 : Ref sig .tc := ⟨.hbm, 28, rfl⟩
abbrev main_v16 : Ref sig .tc := ⟨.hbm, 29, rfl⟩
abbrev main_v17 : Ref sig .tc := ⟨.hbm, 30, rfl⟩
abbrev main_cst_3 : Ref sig .tc := ⟨.hbm, 31, rfl⟩
abbrev main_v18 : Ref sig .tc := ⟨.hbm, 32, rfl⟩
abbrev main_v19 : Ref sig .tc := ⟨.hbm, 33, rfl⟩
abbrev main_v20 : Ref sig .tc := ⟨.hbm, 34, rfl⟩
abbrev main_v21 : Ref sig .tc := ⟨.hbm, 35, rfl⟩
abbrev main_v22 : Ref sig .tc := ⟨.hbm, 36, rfl⟩
abbrev main_v23 : Ref sig .tc := ⟨.hbm, 37, rfl⟩
abbrev main_v24 : Ref sig .tc := ⟨.hbm, 38, rfl⟩
abbrev main_v25 : Ref sig .tc := ⟨.hbm, 39, rfl⟩
abbrev main_v26 : Ref sig .tc := ⟨.hbm, 40, rfl⟩
abbrev main_v27 : Ref sig .tc := ⟨.hbm, 41, rfl⟩
abbrev main_v28 : Ref sig .tc := ⟨.hbm, 42, rfl⟩
abbrev main_v29 : Ref sig .tc := ⟨.hbm, 43, rfl⟩
abbrev main_call0_cst : Ref sig .tc := ⟨.hbm, 44, rfl⟩
abbrev main_call0_v0 : Ref sig .tc := ⟨.hbm, 45, rfl⟩
abbrev main_v30 : Ref sig .tc := ⟨.hbm, 46, rfl⟩
abbrev main_c_4 : Ref sig .tc := ⟨.hbm, 47, rfl⟩
abbrev main_v31 : Ref sig .tc := ⟨.hbm, 48, rfl⟩
abbrev main_v32 : Ref sig .tc := ⟨.hbm, 49, rfl⟩
abbrev main_c_5 : Ref sig .tc := ⟨.hbm, 50, rfl⟩
abbrev main_v33 : Ref sig .tc := ⟨.hbm, 51, rfl⟩
abbrev main_v34 : Ref sig .tc := ⟨.hbm, 52, rfl⟩
abbrev main_v35 : Ref sig .tc := ⟨.hbm, 53, rfl⟩
abbrev main_v36 : Ref sig .tc := ⟨.hbm, 54, rfl⟩
abbrev main_v37 : Ref sig .tc := ⟨.hbm, 55, rfl⟩
abbrev main_cst_6 : Ref sig .tc := ⟨.hbm, 56, rfl⟩
abbrev main_v38 : Ref sig .tc := ⟨.hbm, 57, rfl⟩
abbrev main_v39 : Ref sig .tc := ⟨.hbm, 58, rfl⟩
abbrev main_v40 : Ref sig .tc := ⟨.hbm, 59, rfl⟩
abbrev main_cst_7 : Ref sig .tc := ⟨.hbm, 60, rfl⟩
abbrev main_v41 : Ref sig .tc := ⟨.hbm, 61, rfl⟩
abbrev main_cst_8 : Ref sig .tc := ⟨.hbm, 62, rfl⟩
abbrev main_v42 : Ref sig .tc := ⟨.hbm, 63, rfl⟩
abbrev main_v43 : Ref sig .tc := ⟨.hbm, 64, rfl⟩
abbrev main_v44 : Ref sig .tc := ⟨.hbm, 65, rfl⟩
abbrev main_cst_9 : Ref sig .tc := ⟨.hbm, 66, rfl⟩
abbrev main_v45 : Ref sig .tc := ⟨.hbm, 67, rfl⟩
abbrev main_v46 : Ref sig .tc := ⟨.hbm, 68, rfl⟩
abbrev main_v47 : Ref sig .tc := ⟨.hbm, 69, rfl⟩
abbrev main_v48 : Ref sig .tc := ⟨.hbm, 70, rfl⟩
abbrev main_v49 : Ref sig .tc := ⟨.hbm, 71, rfl⟩
abbrev main_v50 : Ref sig .tc := ⟨.hbm, 72, rfl⟩
abbrev main_v51 : Ref sig .tc := ⟨.hbm, 73, rfl⟩
abbrev main_v52 : Ref sig .tc := ⟨.hbm, 74, rfl⟩
abbrev main_v53 : Ref sig .tc := ⟨.hbm, 75, rfl⟩
abbrev main_v54 : Ref sig .tc := ⟨.hbm, 76, rfl⟩
abbrev main_v55 : Ref sig .tc := ⟨.hbm, 77, rfl⟩
abbrev main_v56 : Ref sig .tc := ⟨.hbm, 78, rfl⟩

abbrev nD : Nat := 1
abbrev τ : Topo := Topo.v7x

variable {F : FTy → Type} [FloatOps F]

class Facts₀ : Prop where
  slices_S2x1280000_S1x1280000_0_0 : S2x1280000.Slices ![0, 0] S1x1280000
  shapeCasts_S1x1280000_S1280000 : S1x1280000.ShapeCasts S1280000
  slices_S2x1280000_S1x1280000_1_0 : S2x1280000.Slices ![1, 0] S1x1280000
  bcast_S_S1280000 : S_.BroadcastsInDim S1280000 (![] : Fin 0 → Fin S1280000.rank)
  bcast_S1280000_S1280000x1_0 : S1280000.BroadcastsInDim S1280000x1 (![0] : Fin 1 → Fin S1280000x1.rank)
  bcast_S_S100000x64 : S_.BroadcastsInDim S100000x64 (![] : Fin 0 → Fin S100000x64.rank)
  bcast_S_S1280000x1 : S_.BroadcastsInDim S1280000x1 (![] : Fin 0 → Fin S1280000x1.rank)
  bcast_S_S100000x1 : S_.BroadcastsInDim S100000x1 (![] : Fin 0 → Fin S100000x1.rank)
  bcast_S100000x1_S100000x64_0_1 : S100000x1.BroadcastsInDim S100000x64 (![0, 1] : Fin 2 → Fin S100000x64.rank)
  transposes_S128x64_S64x128_1_0 : S128x64.Transposes [1, 0] S64x128
  bcast_S128_S1x128_1 : S128.BroadcastsInDim S1x128 (![1] : Fin 1 → Fin S1x128.rank)
  bcast_S1x128_S100000x128_0_1 : S1x128.BroadcastsInDim S100000x128 (![0, 1] : Fin 2 → Fin S100000x128.rank)
  bcast_S_S100000x128 : S_.BroadcastsInDim S100000x128 (![] : Fin 0 → Fin S100000x128.rank)
  bcast_S100000x1_S100000x128_0_1 : S100000x1.BroadcastsInDim S100000x128 (![0, 1] : Fin 2 → Fin S100000x128.rank)
  transposes_S64x128_S128x64_1_0 : S64x128.Transposes [1, 0] S128x64
  bcast_S64_S1x64_1 : S64.BroadcastsInDim S1x64 (![1] : Fin 1 → Fin S1x64.rank)
  bcast_S1x64_S100000x64_0_1 : S1x64.BroadcastsInDim S100000x64 (![0, 1] : Fin 2 → Fin S100000x64.rank)
  gather_S100000x64_S1280000x1_S1280000x64_1_0_n_n_0_1_164_wf : GatherDims.WF S100000x64 S1280000x1 S1280000x64 [1] [0] [] [0] [] 1 ![1, 64]
  scatter_S100000x64_S1280000x1_S1280000x64_1_0_0_1_wf : ScatterDims.WF S100000x64 S1280000x1 S1280000x64 [1] [0] [0] 1
  scatter_S100000x1_S1280000x1_S1280000x1_1_0_0_1_wf : ScatterDims.WF S100000x1 S1280000x1 S1280000x1 [1] [0] [0] 1
  dot_S100000x64_S64x128_S100000x128_1_0_0_1_n_n_wf : DotDims.WF S100000x64 S64x128 S100000x128 [1] [0] [0] [1] [] []
  gather_S100000x128_S1280000x1_S1280000x128_1_0_n_n_0_1_1128_wf : GatherDims.WF S100000x128 S1280000x1 S1280000x128 [1] [0] [] [0] [] 1 ![1, 128]
  scatter_S100000x128_S1280000x1_S1280000x128_1_0_0_1_wf : ScatterDims.WF S100000x128 S1280000x1 S1280000x128 [1] [0] [0] 1
  dot_S100000x128_S128x64_S100000x64_1_0_0_1_n_n_wf : DotDims.WF S100000x128 S128x64 S100000x64 [1] [0] [0] [1] [] []

variable [Facts₀]

def gather_S100000x64_S1280000x1_S1280000x64_1_0_n_n_0_1_164 : GatherDims S100000x64 S1280000x1 S1280000x64 where
  offsetDims := [1]
  collapsedSliceDims := [0]
  operandBatchingDims := []
  startIndicesBatchingDims := []
  startIndexMap := [0]
  indexVectorDim := 1
  sliceSizes := ![1, 64]
  wf := gather_S100000x64_S1280000x1_S1280000x64_1_0_n_n_0_1_164_wf
def scatter_S100000x64_S1280000x1_S1280000x64_1_0_0_1 : ScatterDims S100000x64 S1280000x1 S1280000x64 where
  updateWindowDims := [1]
  insertedWindowDims := [0]
  scatterDimsToOperandDims := [0]
  indexVectorDim := 1
  wf := scatter_S100000x64_S1280000x1_S1280000x64_1_0_0_1_wf
def scatter_S100000x1_S1280000x1_S1280000x1_1_0_0_1 : ScatterDims S100000x1 S1280000x1 S1280000x1 where
  updateWindowDims := [1]
  insertedWindowDims := [0]
  scatterDimsToOperandDims := [0]
  indexVectorDim := 1
  wf := scatter_S100000x1_S1280000x1_S1280000x1_1_0_0_1_wf
def dot_S100000x64_S64x128_S100000x128_1_0_0_1_n_n : DotDims S100000x64 S64x128 S100000x128 where
  lhsContracting := [1]
  rhsContracting := [0]
  lhsNonContracting := [0]
  rhsNonContracting := [1]
  lhsBatch := []
  rhsBatch := []
  wf := dot_S100000x64_S64x128_S100000x128_1_0_0_1_n_n_wf
def gather_S100000x128_S1280000x1_S1280000x128_1_0_n_n_0_1_1128 : GatherDims S100000x128 S1280000x1 S1280000x128 where
  offsetDims := [1]
  collapsedSliceDims := [0]
  operandBatchingDims := []
  startIndicesBatchingDims := []
  startIndexMap := [0]
  indexVectorDim := 1
  sliceSizes := ![1, 128]
  wf := gather_S100000x128_S1280000x1_S1280000x128_1_0_n_n_0_1_1128_wf
def scatter_S100000x128_S1280000x1_S1280000x128_1_0_0_1 : ScatterDims S100000x128 S1280000x1 S1280000x128 where
  updateWindowDims := [1]
  insertedWindowDims := [0]
  scatterDimsToOperandDims := [0]
  indexVectorDim := 1
  wf := scatter_S100000x128_S1280000x1_S1280000x128_1_0_0_1_wf
def dot_S100000x128_S128x64_S100000x64_1_0_0_1_n_n : DotDims S100000x128 S128x64 S100000x64 where
  lhsContracting := [1]
  rhsContracting := [0]
  lhsNonContracting := [0]
  rhsNonContracting := [1]
  lhsBatch := []
  rhsBatch := []
  wf := dot_S100000x128_S128x64_S100000x64_1_0_0_1_n_n_wf

class Facts : Prop extends Facts₀ where

variable [Facts]
-- ==== Proof.KernelHost.lean ====
/-
  What the two kernel regions find in their arrays: the host operations around them, named.

  From the edge list (row 0 the source node of each edge, row 1 the destination) the host computes, once, the reciprocal
  `1 / max (indegree, 1)` of every node; and for a feature array `z` the NEIGHBOUR MEAN: the rows of `z` at the edges'
  sources, summed into the rows at the edges' destinations, each row times that reciprocal. Region 0 is entered with the
  mean of the node features, region 1 with the mean of region 0's output; the weights and biases reach both unchanged.
-/
import proofs.«130933_j7172595384376_1_alg».proof.Proof.Gen.KernelIdeal.Frame
import Idealize.ShloMosaic.Lib.StableHlo.Run

set_option maxRecDepth 16384

noncomputable section

namespace Cert.KernelIdeal.HostSide

open Cert.KernelIdeal Cert.KernelIdeal.Gen
open Idealize.ShloMosaic Idealize.ShloMosaic.TcCoe Idealize.SL.Sem Idealize.ShloMosaic.StableHlo

variable {F : FTy → Type} [FloatOps F]

/-! ## The shared host chain -/

/-- The edges' source nodes: row 0 of the edge list. -/
def sources (e : (⟨S2x1280000, .i32⟩ : BufTy).Contents (Elt F)) : (⟨S1280000, .i32⟩ : BufTy).Contents (Elt F) :=
  shapeCast _ (extractStridedSlice S1x1280000 ![0, 0] e slices_S2x1280000_S1x1280000_0_0) shapeCasts_S1x1280000_S1280000
/-- The edges' destination nodes: row 1 of the edge list. -/
def dests (e : (⟨S2x1280000, .i32⟩ : BufTy).Contents (Elt F)) : (⟨S1280000, .i32⟩ : BufTy).Contents (Elt F) :=
  shapeCast _ (extractStridedSlice S1x1280000 ![1, 0] e slices_S2x1280000_S1x1280000_1_0) shapeCasts_S1x1280000_S1280000
/-- The gather's indices: each source node, a negative one counted from the end, as a column. -/
def gatherIdx (s : (⟨S1280000, .i32⟩ : BufTy).Contents (Elt F)) : (⟨S1280000x1, .i32⟩ : BufTy).Contents (Elt F) :=
  broadcastInDim S1280000x1 ![0] bcast_S1280000_S1280000x1_0
    (select (cmpi .slt s (broadcastInDim S1280000 ![] bcast_S_S1280000 (constantI S_ 32 0#32)))
      (addi s (broadcastInDim S1280000 ![] bcast_S_S1280000 (constantI S_ 32 100000#32))) s)
/-- The scatter's indices: each destination node, as a column. -/
def scatterIdx (d : (⟨S1280000, .i32⟩ : BufTy).Contents (Elt F)) : (⟨S1280000x1, .i32⟩ : BufTy).Contents (Elt F) :=
  broadcastInDim S1280000x1 ![0] bcast_S1280000_S1280000x1_0 d
/-- `1 / max (indegree, 1)` per node: ones summed at the edges' destinations, raised to one, inverted. -/
def invDegree (d : (⟨S1280000, .i32⟩ : BufTy).Contents (Elt F)) : (⟨S100000x1, .f32⟩ : BufTy).Contents (Elt F) :=
  Host.divf (broadcastInDim S100000x1 ![] bcast_S_S100000x1 (constant S_ .f32 0x3F800000#32))
    (maximumf
      (Host.scatterAdd scatter_S100000x1_S1280000x1_S1280000x1_1_0_0_1
        (broadcastInDim S100000x1 ![] bcast_S_S100000x1 (constant S_ .f32 0x00000000#32)) (scatterIdx d)
        (broadcastInDim S1280000x1 ![] bcast_S_S1280000x1 (constant S_ .f32 0x3F800000#32)))
      (broadcastInDim S100000x1 ![] bcast_S_S100000x1 (constant S_ .f32 0x3F800000#32)))
/-- The neighbour mean of 64 features per node. -/
def mean64 (z : (⟨S100000x64, .f32⟩ : BufTy).Contents (Elt F)) (s d : (⟨S1280000, .i32⟩ : BufTy).Contents (Elt F))
    (inv : (⟨S100000x1, .f32⟩ : BufTy).Contents (Elt F)) : (⟨S100000x64, .f32⟩ : BufTy).Contents (Elt F) :=
  mulf
    (Host.scatterAdd scatter_S100000x64_S1280000x1_S1280000x64_1_0_0_1
      (broadcastInDim S100000x64 ![] bcast_S_S100000x64 (constant S_ .f32 0x00000000#32)) (scatterIdx d)
      (Host.gather gather_S100000x64_S1280000x1_S1280000x64_1_0_n_n_0_1_164 z (gatherIdx s)))
    (broadcastInDim S100000x64 ![0, 1] bcast_S100000x1_S100000x64_0_1 inv)
/-- The neighbour mean of 128 features per node. -/
def mean128 (z : (⟨S100000x128, .f32⟩ : BufTy).Contents (Elt F)) (s d : (⟨S1280000, .i32⟩ : BufTy).Contents (Elt F))
    (inv : (⟨S100000x1, .f32⟩ : BufTy).Contents (Elt F)) : (⟨S100000x128, .f32⟩ : BufTy).Contents (Elt F) :=
  mulf
    (Host.scatterAdd scatter_S100000x128_S1280000x1_S1280000x128_1_0_0_1
      (broadcastInDim S100000x128 ![] bcast_S_S100000x128 (constant S_ .f32 0x00000000#32)) (scatterIdx d)
      (Host.gather gather_S100000x128_S1280000x1_S1280000x128_1_0_n_n_0_1_1128 z (gatherIdx s)))
    (broadcastInDim S100000x128 ![0, 1] bcast_S100000x1_S100000x128_0_1 inv)

variable (m : (ℓ : Loc nD τ sig) → Buf (Elt F) ℓ) (ρ : Dev nD → PrngReg)

/-! ## Region 0's arrays on entry -/

theorem sources_at1 (c : Dev nD) : W1 m ρ c (Proc.devRef .tc main_v1) = sources (m ((c : Thread nD τ).loc main_arg1)) := by
  show StableHlo.after hostOps0 (W0 m ρ c) (Proc.devRef .tc main_v1) = _
  after_results_simp <;> rfl
theorem dests_at1 (c : Dev nD) : W1 m ρ c (Proc.devRef .tc main_v3) = dests (m ((c : Thread nD τ).loc main_arg1)) := by
  show StableHlo.after hostOps0 (W0 m ρ c) (Proc.devRef .tc main_v3) = _
  after_results_simp <;> rfl
theorem invDegree_at1 (c : Dev nD) : W1 m ρ c (Proc.devRef .tc main_v11) = invDegree (dests (m ((c : Thread nD τ).loc main_arg1))) := by
  show StableHlo.after hostOps0 (W0 m ρ c) (Proc.devRef .tc main_v11) = _
  after_results_simp <;> rfl
/-- Window 0: the neighbour mean of the node features. -/
theorem entry0_mean (c : Dev nD) : V1 m ρ c main_v23
    = mean64 (m ((c : Thread nD τ).loc main_arg0)) (sources (m ((c : Thread nD τ).loc main_arg1))) (dests (m ((c : Thread nD τ).loc main_arg1)))
        (invDegree (dests (m ((c : Thread nD τ).loc main_arg1)))) := by
  show StableHlo.after hostOps0 (W0 m ρ c) (Proc.devRef .tc main_v23) = _
  after_results_simp <;> rfl
/-- Window 1: the node features. -/
theorem entry0_x (c : Dev nD) : V1 m ρ c main_arg0 = m ((c : Thread nD τ).loc main_arg0) := by
  show StableHlo.after hostOps0 (W0 m ρ c) (Proc.devRef .tc main_arg0) = _
  after_results_simp <;> rfl
/-- Window 2: the neighbour weights. -/
theorem entry0_wl (c : Dev nD) : V1 m ρ c main_arg2 = m ((c : Thread nD τ).loc main_arg2) := by
  show StableHlo.after hostOps0 (W0 m ρ c) (Proc.devRef .tc main_arg2) = _
  after_results_simp <;> rfl
/-- Window 3: the bias as a row. -/
theorem entry0_b (c : Dev nD) : V1 m ρ c main_v24 = shapeCast _ (m ((c : Thread nD τ).loc main_arg3)) shapeCasts_S128_S1x128 := by
  show StableHlo.after hostOps0 (W0 m ρ c) (Proc.devRef .tc main_v24) = _
  after_results_simp <;> rfl
/-- Window 4: the root weights. -/
theorem entry0_wr (c : Dev nD) : V1 m ρ c main_arg4 = m ((c : Thread nD τ).loc main_arg4) := by
  show StableHlo.after hostOps0 (W0 m ρ c) (Proc.devRef .tc main_arg4) = _
  after_results_simp <;> rfl

/-! ## Region 1's arrays on entry, over region 0's exit contents -/

/-- Window 0: the neighbour mean of region 0's output, with the endpoints and the reciprocal degree as region 0 left them. -/
theorem entry1_mean_raw (c : Dev nD) : V3 m ρ c main_v37
    = mean128 (W2 m ρ c (Proc.devRef .tc main_v25)) (W2 m ρ c (Proc.devRef .tc main_v1)) (W2 m ρ c (Proc.devRef .tc main_v3))
        (W2 m ρ c (Proc.devRef .tc main_v11)) := by
  show StableHlo.after hostOps1 (W2 m ρ c) (Proc.devRef .tc main_v37) = _
  after_results_simp <;> rfl
/-- Window 1: region 0's output. -/
theorem entry1_h (c : Dev nD) : V3 m ρ c main_v25 = W2 m ρ c (Proc.devRef .tc main_v25) := by
  show StableHlo.after hostOps1 (W2 m ρ c) (Proc.devRef .tc main_v25) = _
  after_results_simp <;> rfl
theorem entry1_wl_raw (c : Dev nD) : V3 m ρ c main_arg5 = W2 m ρ c (Proc.devRef .tc main_arg5) := by
  show StableHlo.after hostOps1 (W2 m ρ c) (Proc.devRef .tc main_arg5) = _
  after_results_simp <;> rfl
theorem entry1_b_raw (c : Dev nD) : V3 m ρ c main_v38 = shapeCast _ (W2 m ρ c (Proc.devRef .tc main_arg6)) shapeCasts_S64_S1x64 := by
  show StableHlo.after hostOps1 (W2 m ρ c) (Proc.devRef .tc main_v38) = _
  after_results_simp <;> rfl
theorem entry1_wr_raw (c : Dev nD) : V3 m ρ c main_arg7 = W2 m ρ c (Proc.devRef .tc main_arg7) := by
  show StableHlo.after hostOps1 (W2 m ρ c) (Proc.devRef .tc main_arg7) = _
  after_results_simp <;> rfl

/-- A buffer that is no array of region 0 and that no host operation before it writes holds its launch contents at
    region 0's exit. -/
theorem kept_arg5 (c : Dev nD) : W2 m ρ c (Proc.devRef .tc main_arg5) = m ((c : Thread nD τ).loc main_arg5) :=
  (W2_of_ne m ρ c main_arg5 (by decide)).trans (by
    show StableHlo.after hostOps0 (W0 m ρ c) (Proc.devRef .tc main_arg5) = _
    after_results_simp <;> rfl)
theorem kept_arg6 (c : Dev nD) : W2 m ρ c (Proc.devRef .tc main_arg6) = m ((c : Thread nD τ).loc main_arg6) :=
  (W2_of_ne m ρ c main_arg6 (by decide)).trans (by
    show StableHlo.after hostOps0 (W0 m ρ c) (Proc.devRef .tc main_arg6) = _
    after_results_simp <;> rfl)
theorem kept_arg7 (c : Dev nD) : W2 m ρ c (Proc.devRef .tc main_arg7) = m ((c : Thread nD τ).loc main_arg7) :=
  (W2_of_ne m ρ c main_arg7 (by decide)).trans (by
    show StableHlo.after hostOps0 (W0 m ρ c) (Proc.devRef .tc main_arg7) = _
    after_results_simp <;> rfl)

/-- Window 0 of region 1, over the launch contents and region 0's output. -/
theorem entry1_mean (c : Dev nD) : V3 m ρ c main_v37
    = mean128 (W2 m ρ c (Proc.devRef .tc main_v25)) (sources (m ((c : Thread nD τ).loc main_arg1))) (dests (m ((c : Thread nD τ).loc main_arg1)))
        (invDegree (dests (m ((c : Thread nD τ).loc main_arg1)))) := by
  rw [entry1_mean_raw, W2_of_ne m ρ c main_v1 (by decide), W2_of_ne m ρ c main_v3 (by decide), W2_of_ne m ρ c main_v11 (by decide),
    sources_at1, dests_at1, invDegree_at1]
theorem entry1_wl (c : Dev nD) : V3 m ρ c main_arg5 = m ((c : Thread nD τ).loc main_arg5) := by
  rw [entry1_wl_raw, kept_arg5]
theorem entry1_b (c : Dev nD) : V3 m ρ c main_v38 = shapeCast _ (m ((c : Thread nD τ).loc main_arg6)) shapeCasts_S64_S1x64 := by
  rw [entry1_b_raw, kept_arg6]
theorem entry1_wr (c : Dev nD) : V3 m ρ c main_arg7 = m ((c : Thread nD τ).loc main_arg7) := by
  rw [entry1_wr_raw, kept_arg7]

end Cert.KernelIdeal.HostSide

end
-- ==== Proof.Layer1Body.lean ====
/-
  Layer 1's kernel body at one entry of its output block.

  The body reads a block of 5000 node rows of the neighbour means and of the node features (64 columns each), the two
  128 × 64 weight matrices and the bias row, and stores the positive part of
  `(mean · W_lᵀ + x · W_rᵀ) + b`. At the ideal instance the change of float format before each product is the identity
  and a product onto a zero accumulator is the plain sum over the shared axis, so the entry at row `p`, column `q` is
  `max ((∑ k, mean[p,k] · W_l[q,k] + ∑ k, x[p,k] · W_r[q,k]) + b[0,q]) 0`.
-/
import proofs.«130933_j7172595384376_1_alg».proof.Proof.Gen.KernelIdeal.Skeleton
import Idealize.ShloMosaic.Lib.ValueIdx
import Idealize.ShloMosaic.Lib.ValueLayout
import Idealize.ShloMosaic.Lib.Pipeline.Value
import Idealize.ShloMosaic.PureOps.Ideal
import Idealize.ShloMosaic.PureOps.Ideal.Laws

noncomputable section

namespace Cert.KernelIdeal.Layer1

open Cert.KernelIdeal Cert.KernelIdeal.Gen
open Idealize.ShloMosaic Idealize.ShloMosaic.ValueIdx
open scoped BigOperators

/-! ## The block product's dimension numbers, axis by axis -/

theorem lhs_axis0 (i : S5000x128.Idx) (q : dot_S5000x64_S64x128_S5000x128_1_0_0_1_n_n.contr.Idx) :
    (dot_S5000x64_S64x128_S5000x128_1_0_0_1_n_n.lhsIdx i q 0).val = (i 0).val := by
  unfold DotDims.lhsIdx
  rw [dif_neg (show ¬(0 : Fin S5000x64.rank) ∈ dot_S5000x64_S64x128_S5000x128_1_0_0_1_n_n.lhsBatch by decide), dif_pos (show (0 : Fin S5000x64.rank) ∈ dot_S5000x64_S64x128_S5000x128_1_0_0_1_n_n.lhsNonContracting by decide)]
  rfl
theorem lhs_axis1 (i : S5000x128.Idx) (q : dot_S5000x64_S64x128_S5000x128_1_0_0_1_n_n.contr.Idx) :
    (dot_S5000x64_S64x128_S5000x128_1_0_0_1_n_n.lhsIdx i q 1).val = (q ⟨0, by decide⟩).val :=
  dot_S5000x64_S64x128_S5000x128_1_0_0_1_n_n.lhsIdx_val_of_single rfl i q
theorem rhs_axis0 (i : S5000x128.Idx) (q : dot_S5000x64_S64x128_S5000x128_1_0_0_1_n_n.contr.Idx) :
    (dot_S5000x64_S64x128_S5000x128_1_0_0_1_n_n.rhsIdx i q 0).val = (q ⟨0, by decide⟩).val :=
  dot_S5000x64_S64x128_S5000x128_1_0_0_1_n_n.rhsIdx_val_of_single rfl i q
theorem rhs_axis1 (i : S5000x128.Idx) (q : dot_S5000x64_S64x128_S5000x128_1_0_0_1_n_n.contr.Idx) :
    (dot_S5000x64_S64x128_S5000x128_1_0_0_1_n_n.rhsIdx i q 1).val = (i 1).val := by
  unfold DotDims.rhsIdx
  rw [dif_neg (show ¬(1 : Fin S64x128.rank) ∈ dot_S5000x64_S64x128_S5000x128_1_0_0_1_n_n.rhsBatch by decide), dif_pos (show (1 : Fin S64x128.rank) ∈ dot_S5000x64_S64x128_S5000x128_1_0_0_1_n_n.rhsNonContracting by decide)]
  rfl

/-- A block of rows times a 64 × 128 matrix, onto zeros, at row `p` and column `q`: the sum over the shared axis. -/
theorem blockProduct_apply {φ₁ φ₂ : FTy} (l : FVec Ideal S5000x64 φ₁) (r : FVec Ideal S64x128 φ₂) (p : Fin 5000) (q : Fin 128) :
    matmul dot_S5000x64_S64x128_S5000x128_1_0_0_1_n_n none l r (constant S5000x128 .f32 0x00000000#32) (ix2 p q)
      = ∑ k : Fin 64, l (ix2 p k) * r (ix2 k q) := by
  simp only [matmul]
  rw [Ideal.matmul_constant_zero_apply, ← Equiv.sum_comp (contrEquiv1 dot_S5000x64_S64x128_S5000x128_1_0_0_1_n_n 64 rfl rfl).symm]
  refine Finset.sum_congr rfl fun k _ => ?_
  have hk := contrEquiv1_symm_val dot_S5000x64_S64x128_S5000x128_1_0_0_1_n_n 64 rfl rfl k
  have el : dot_S5000x64_S64x128_S5000x128_1_0_0_1_n_n.lhsIdx (ix2 p q) ((contrEquiv1 dot_S5000x64_S64x128_S5000x128_1_0_0_1_n_n 64 rfl rfl).symm k) = ix2 p k := funext fun a => Fin.ext (by
    match a with
    | ⟨0, _⟩ => exact lhs_axis0 _ _
    | ⟨1, _⟩ => exact (lhs_axis1 _ _).trans hk)
  have er : dot_S5000x64_S64x128_S5000x128_1_0_0_1_n_n.rhsIdx (ix2 p q) ((contrEquiv1 dot_S5000x64_S64x128_S5000x128_1_0_0_1_n_n 64 rfl rfl).symm k) = ix2 k q := funext fun a => Fin.ext (by
    match a with
    | ⟨0, _⟩ => exact (rhs_axis0 _ _).trans hk
    | ⟨1, _⟩ => exact rhs_axis1 _ _)
  rw [el, er]

/-! ## The layout operations the body applies, at an index -/

/-- A weight matrix, its format changed and transposed, at `(k, q)` is the matrix at `(q, k)`. -/
theorem weightT_apply (w : Vec Ideal S128x64 .f32) (k : Fin 64) (q : Fin 128) :
    (transpose S64x128 [1, 0] (truncf (F := Ideal) .bf16 w bitsLt_bf16_f32) transposes_S128x64_p1_0_S64x128 (ix2 k q) : EReal) = w (ix2 q k) :=
  transpose_ix2_apply (truncf (F := Ideal) .bf16 w bitsLt_bf16_f32) transposes_S128x64_p1_0_S64x128 k q

/-- The bias row broadcast down the block's rows, at `(p, q)`, is the row's entry `q`. -/
theorem biasRows_apply (b : Vec Ideal S1x128 .f32) (p : Fin 5000) (q : Fin 128) :
    broadcastTo S5000x128 b broadcasts_S1x128_S5000x128 (ix2 p q) = b (ix2 (0 : Fin 1) q) := by
  exact broadcastTo_apply b broadcasts_S1x128_S5000x128 (ix2 p q) (ix2 (0 : Fin 1) q) fun a => by
    match a with
    | ⟨0, _⟩ => show (0 : Nat) = if (1 : Nat) = 1 then 0 else p.val; rw [if_pos rfl]
    | ⟨1, _⟩ => show q.val = if (128 : Nat) = 1 then 0 else q.val; rw [if_neg (by decide)]

/-! ## The stored value at an entry -/

/-- What the body stores at row `p`, column `q` of its output block, from the blocks it loaded. -/
theorem stored_apply (mean x : Vec Ideal S5000x64 .f32) (wl wr : Vec Ideal S128x64 .f32) (b : Vec Ideal S1x128 .f32)
    (p : Fin 5000) (q : Fin 128) :
    k0_pay1 mean x wl wr b (ix2 p q)
      = max ((∑ k : Fin 64, mean (ix2 p k) * wl (ix2 q k) + ∑ k : Fin 64, x (ix2 p k) * wr (ix2 q k)) + b (ix2 (0 : Fin 1) q)) (Ideal.ofBits .f32 0x00000000#32) := by
  unfold k0_pay1
  simp only [maximumf_apply, broadcast_apply, addf_apply, shapeCast_self]
  rw [blockProduct_apply, blockProduct_apply, biasRows_apply]
  simp only [truncf_apply]
  have el : (∑ k : Fin 64, mean (ix2 p k) * (transpose S64x128 [1, 0] (truncf (F := Ideal) .bf16 wl bitsLt_bf16_f32) transposes_S128x64_p1_0_S64x128 (ix2 k q) : EReal))
      = ∑ k : Fin 64, mean (ix2 p k) * wl (ix2 q k) :=
    Finset.sum_congr rfl fun k _ => congrArg (mean (ix2 p k) * ·) (weightT_apply wl k q)
  have er : (∑ k : Fin 64, x (ix2 p k) * (transpose S64x128 [1, 0] (truncf (F := Ideal) .bf16 wr bitsLt_bf16_f32) transposes_S128x64_p1_0_S64x128 (ix2 k q) : EReal))
      = ∑ k : Fin 64, x (ix2 p k) * wr (ix2 q k) :=
    Finset.sum_congr rfl fun k _ => congrArg (x (ix2 p k) * ·) (weightT_apply wr k q)
  exact congrArg₂ max (congrArg₂ (· + ·) (congrArg₂ (· + ·) el er) rfl) rfl

end Cert.KernelIdeal.Layer1

end
-- ==== Proof.Layer1Array.lean ====
/-
  Layer 1's output array after its region, as ONE function of the five arrays the region reads.

  The grid has twenty points; point `t` reads rows `5000 t … 5000 t + 4999` of the neighbour means and of the node
  features, the two weight matrices and the bias row whole, and writes rows `5000 t … 5000 t + 4999` of the output. An entry
  of the output block depends on ONE row of each row block and on one row of each weight matrix, so block `t` of the
  output is block `t` of the whole-array function `hidden` below, and the twenty blocks tile the 100000 rows: the array
  ends holding `hidden`.
-/
import proofs.«130933_j7172595384376_1_alg».proof.Proof.Gen.KernelIdeal.Frame
import proofs.«130933_j7172595384376_1_alg».proof.Proof.Layer1Body
import Idealize.ShloMosaic.Lib.Pipeline.Value

set_option maxRecDepth 16384

noncomputable section

namespace Cert.KernelIdeal.Layer1

open Cert.KernelIdeal Cert.KernelIdeal.Gen
open Idealize.ShloMosaic Idealize.ShloMosaic.TcCoe Idealize.ShloMosaic.ValueIdx Idealize.SL.Sem
open Idealize.ShloMosaic.Pipeline (Dat)
open scoped BigOperators

/-- The hidden layer at node `i 0`, feature `i 1`: the positive part of `(mean · W_lᵀ + x · W_rᵀ) + b`. -/
def hidden (mean x : S100000x64.Idx → EReal) (wl : S128x64.Idx → EReal) (b : S1x128.Idx → EReal) (wr : S128x64.Idx → EReal) :
    S100000x128.Idx → EReal := fun i =>
  max ((∑ k : Fin 64, mean (ix2 (⟨(i 0).val, (i 0).isLt⟩ : Fin 100000) k) * wl (ix2 (⟨(i 1).val, (i 1).isLt⟩ : Fin 128) k)
        + ∑ k : Fin 64, x (ix2 (⟨(i 0).val, (i 0).isLt⟩ : Fin 100000) k) * wr (ix2 (⟨(i 1).val, (i 1).isLt⟩ : Fin 128) k))
      + b (ix2 (0 : Fin 1) (⟨(i 1).val, (i 1).isLt⟩ : Fin 128)))
    (Ideal.ofBits .f32 0x00000000#32)

variable (V : (c : Dev nD) → (b : Ref sig .tc) → Buf (Elt Ideal) ((c : Thread nD τ).loc b))

theorem hz : (![0, 0] : Fin 2 → Nat) = fun _ => 0 := funext fun a => by fin_cases a <;> rfl

/-- The printed index maps over the grid: the two row-block windows move with the output's, the weights and the bias
    stay at block `(0, 0)`, and the output's row-block index is the point's number. -/
theorem blockIndices : ∀ t : Fin cfg0.N, win0_0.index t (0 : Fin 2) = win0_5.index t (0 : Fin 2) ∧ win0_0.index t (1 : Fin 2) = 0
    ∧ win0_1.index t (0 : Fin 2) = win0_5.index t (0 : Fin 2) ∧ win0_1.index t (1 : Fin 2) = 0
    ∧ win0_2.index t (0 : Fin 2) = 0 ∧ win0_2.index t (1 : Fin 2) = 0
    ∧ win0_3.index t (0 : Fin 2) = 0 ∧ win0_3.index t (1 : Fin 2) = 0
    ∧ win0_4.index t (0 : Fin 2) = 0 ∧ win0_4.index t (1 : Fin 2) = 0
    ∧ win0_5.index t (0 : Fin 2) < 20 ∧ win0_5.index t (1 : Fin 2) = 0 :=
  (by decide +kernel : ∀ t : Fin grid0.N, _)

/-- Every row block of the output is some point's. -/
theorem blockOnto : ∀ q0 : Fin 20, ∃ t : Fin cfg0.N, win0_5.index t = ![q0.val, 0] :=
  (by decide +kernel : ∀ q0 : Fin 20, ∃ t : Fin grid0.N, win0_5.index t = ![q0.val, 0])

/-- What point `t` writes back is block `t` of `hidden` of the arrays as the region finds them. -/
theorem flushed_eq (c : Dev nD) (t : Fin cfg0.N) :
    (dat0 V c).flushed 5 t = ((cfg0.win 5).blk t).view.read (Elt Ideal)
      (hidden (V c main_v23) (V c main_arg0) (V c main_arg2) (V c main_v24) (V c main_arg4)) := by
  show (cfg0.win 5).cut (grid0.coords t) ((dat0 V c).after 5 t) = _
  rw [after0_5]
  unfold out0_5
  rw [View.canon_unit_zero hz]
  simp only [View.ld_unit_zero (S := S5000x64) hz, View.ld_unit_zero (S := S128x64) hz, View.ld_unit_zero (S := S1x128) hz]
  obtain ⟨f00, f01, f10, f11, f20, f21, f30, f31, f40, f41, f50, f51⟩ := blockIndices t
  refine funext fun (j : S5000x128.Idx) => ?_
  obtain ⟨p, q, rfl⟩ : ∃ (p : Fin 5000) (q : Fin 128), j = ix2 p q := ⟨j 0, j 1, eq_ix2 j⟩
  refine (stored_apply (iblk0 V c 0 t) (iblk0 V c 1 t) (iblk0 V c 2 t) (iblk0 V c 4 t) (iblk0 V c 3 t) p q).trans ?_
  rw [View.read_apply]
  unfold hidden
  have hp : p.val < 5000 := p.isLt
  have hq : q.val < 128 := q.isLt
  -- the row of the arrays this entry reads, and its column
  have hrow : ((((cfg0.win 5).blk t).view.emb (ix2 p q)) 0).val = win0_5.index t (0 : Fin 2) * 5000 + 1 * p.val := rfl
  have hcol : ((((cfg0.win 5).blk t).view.emb (ix2 p q)) 1).val = win0_5.index t (1 : Fin 2) * 128 + 1 * q.val := rfl
  have e0 : ∀ k : Fin 64, iblk0 V c 0 t (ix2 p k) = V c main_v23 (ix2 (⟨((((cfg0.win 5).blk t).view.emb (ix2 p q)) 0).val, ((((cfg0.win 5).blk t).view.emb (ix2 p q)) 0).isLt⟩ : Fin 100000) k) := fun k => by
    unfold iblk0; rw [View.read_apply]
    show V c main_v23 _ = V c main_v23 _
    refine congrArg _ (funext fun a => Fin.ext ?_)
    have hk : k.val < 64 := k.isLt
    match a with
    | ⟨0, _⟩ => show win0_0.index t (0 : Fin 2) * 5000 + 1 * p.val = win0_5.index t (0 : Fin 2) * 5000 + 1 * p.val; omega
    | ⟨1, _⟩ => show win0_0.index t (1 : Fin 2) * 64 + 1 * k.val = k.val; omega
  have e1 : ∀ k : Fin 64, iblk0 V c 1 t (ix2 p k) = V c main_arg0 (ix2 (⟨((((cfg0.win 5).blk t).view.emb (ix2 p q)) 0).val, ((((cfg0.win 5).blk t).view.emb (ix2 p q)) 0).isLt⟩ : Fin 100000) k) := fun k => by
    unfold iblk0; rw [View.read_apply]
    show V c main_arg0 _ = V c main_arg0 _
    refine congrArg _ (funext fun a => Fin.ext ?_)
    have hk : k.val < 64 := k.isLt
    match a with
    | ⟨0, _⟩ => show win0_1.index t (0 : Fin 2) * 5000 + 1 * p.val = win0_5.index t (0 : Fin 2) * 5000 + 1 * p.val; omega
    | ⟨1, _⟩ => show win0_1.index t (1 : Fin 2) * 64 + 1 * k.val = k.val; omega
  have e2 : ∀ k : Fin 64, iblk0 V c 2 t (ix2 q k) = V c main_arg2 (ix2 (⟨((((cfg0.win 5).blk t).view.emb (ix2 p q)) 1).val, ((((cfg0.win 5).blk t).view.emb (ix2 p q)) 1).isLt⟩ : Fin 128) k) := fun k => by
    unfold iblk0; rw [View.read_apply]
    show V c main_arg2 _ = V c main_arg2 _
    refine congrArg _ (funext fun a => Fin.ext ?_)
    have hk : k.val < 64 := k.isLt
    match a with
    | ⟨0, _⟩ => show win0_2.index t (0 : Fin 2) * 128 + 1 * q.val = win0_5.index t (1 : Fin 2) * 128 + 1 * q.val; omega
    | ⟨1, _⟩ => show win0_2.index t (1 : Fin 2) * 64 + 1 * k.val = k.val; omega
  have e4 : ∀ k : Fin 64, iblk0 V c 4 t (ix2 q k) = V c main_arg4 (ix2 (⟨((((cfg0.win 5).blk t).view.emb (ix2 p q)) 1).val, ((((cfg0.win 5).blk t).view.emb (ix2 p q)) 1).isLt⟩ : Fin 128) k) := fun k => by
    unfold iblk0; rw [View.read_apply]
    show V c main_arg4 _ = V c main_arg4 _
    refine congrArg _ (funext fun a => Fin.ext ?_)
    have hk : k.val < 64 := k.isLt
    match a with
    | ⟨0, _⟩ => show win0_4.index t (0 : Fin 2) * 128 + 1 * q.val = win0_5.index t (1 : Fin 2) * 128 + 1 * q.val; omega
    | ⟨1, _⟩ => show win0_4.index t (1 : Fin 2) * 64 + 1 * k.val = k.val; omega
  have e3 : iblk0 V c 3 t (ix2 (0 : Fin 1) q) = V c main_v24 (ix2 (0 : Fin 1) (⟨((((cfg0.win 5).blk t).view.emb (ix2 p q)) 1).val, ((((cfg0.win 5).blk t).view.emb (ix2 p q)) 1).isLt⟩ : Fin 128)) := by
    unfold iblk0; rw [View.read_apply]
    show V c main_v24 _ = V c main_v24 _
    refine congrArg _ (funext fun a => Fin.ext ?_)
    match a with
    | ⟨0, _⟩ => show win0_3.index t (0 : Fin 2) * 1 + 1 * 0 = 0; omega
    | ⟨1, _⟩ => show win0_3.index t (1 : Fin 2) * 128 + 1 * q.val = win0_5.index t (1 : Fin 2) * 128 + 1 * q.val; omega
  exact congrArg₂ max (congrArg₂ (· + ·) (congrArg₂ (· + ·)
      (Finset.sum_congr rfl fun k _ => congrArg₂ (· * ·) (e0 k) (e2 k))
      (Finset.sum_congr rfl fun k _ => congrArg₂ (· * ·) (e1 k) (e4 k))) e3) rfl

/-- An index of the output array is in point `t`'s block iff each coordinate is in the block's range on its axis. -/
theorem mem_blk (t : Fin cfg0.N) (i : S100000x128.Idx) :
    i ∈ ((cfg0.win 5).blk t).view.set ↔ ∀ a : Fin 2, win0_5.index t a * S5000x128.size a ≤ (i a).val ∧ (i a).val < win0_5.index t a * S5000x128.size a + S5000x128.size a := by
  show i ∈ ((View.whole main_v25).slice (win0_5.rect t)).set ↔ _
  rw [View.set_slice_whole, Rect.mem_set_unit]
  exact Iff.rfl

/-- The twenty row blocks tile the array: row `r` is in the block of point `r / 5000`. -/
theorem covered (i : S100000x128.Idx) : ∃ t : Fin cfg0.N, (cfg0.win 5).flush t = true ∧ i ∈ ((cfg0.win 5).blk t).view.set := by
  have hi0 : (i 0).val < 100000 := (i 0).isLt
  have hi1 : (i 1).val < 128 := (i 1).isLt
  obtain ⟨t, ht⟩ := blockOnto ⟨(i 0).val / 5000, by omega⟩
  have q0 : win0_5.index t (0 : Fin 2) = (i 0).val / 5000 := congrFun ht 0
  have q1 : win0_5.index t (1 : Fin 2) = 0 := congrFun ht 1
  refine ⟨t, flush0_5 t, ?_⟩
  rw [mem_blk]
  intro a
  match a with
  | ⟨0, _⟩ => show win0_5.index t (0 : Fin 2) * 5000 ≤ (i 0).val ∧ (i 0).val < win0_5.index t (0 : Fin 2) * 5000 + 5000; omega
  | ⟨1, _⟩ => show win0_5.index t (1 : Fin 2) * 128 ≤ (i 1).val ∧ (i 1).val < win0_5.index t (1 : Fin 2) * 128 + 128; omega

/-- The output array after the region: `hidden` of the five arrays as the region finds them. -/
theorem final (c : Dev nD) : (dat0 V c).arrAt 5 cfg0.N
    = hidden (V c main_v23) (V c main_arg0) (V c main_arg2) (V c main_v24) (V c main_arg4) :=
  (dat0 V c).arrAt_eq_of_cover 5 _ (fun t _ => flushed_eq V c t) (covered)

end Cert.KernelIdeal.Layer1

end
-- ==== Proof.Layer2Body.lean ====
/-
  Layer 2's kernel body at one entry of its output block.

  The body reads a block of 5000 node rows of the neighbour means of the hidden layer and of the hidden layer itself
  (128 columns each), the two 64 × 128 weight matrices and the bias row, and stores `(mean · W_lᵀ + h · W_rᵀ) + b`: the
  output layer has no positive part. At the ideal instance the change of float format before each product is the
  identity and a product onto a zero accumulator is the plain sum over the shared axis, so the entry at row `p`,
  column `q` is `(∑ k, mean[p,k] · W_l[q,k] + ∑ k, h[p,k] · W_r[q,k]) + b[0,q]`, the sums over the 128 hidden features.
-/
import proofs.«130933_j7172595384376_1_alg».proof.Proof.Gen.KernelIdeal.Skeleton
import Idealize.ShloMosaic.Lib.ValueIdx
import Idealize.ShloMosaic.Lib.ValueLayout
import Idealize.ShloMosaic.Lib.Pipeline.Value
import Idealize.ShloMosaic.PureOps.Ideal
import Idealize.ShloMosaic.PureOps.Ideal.Laws

noncomputable section

namespace Cert.KernelIdeal.Layer2

open Cert.KernelIdeal Cert.KernelIdeal.Gen
open Idealize.ShloMosaic Idealize.ShloMosaic.ValueIdx
open scoped BigOperators

/-! ## The block product's dimension numbers, axis by axis -/

theorem lhs_axis0 (i : S5000x64.Idx) (q : dot_S5000x128_S128x64_S5000x64_1_0_0_1_n_n.contr.Idx) :
    (dot_S5000x128_S128x64_S5000x64_1_0_0_1_n_n.lhsIdx i q 0).val = (i 0).val := by
  unfold DotDims.lhsIdx
  rw [dif_neg (show ¬(0 : Fin S5000x128.rank) ∈ dot_S5000x128_S128x64_S5000x64_1_0_0_1_n_n.lhsBatch by decide), dif_pos (show (0 : Fin S5000x128.rank) ∈ dot_S5000x128_S128x64_S5000x64_1_0_0_1_n_n.lhsNonContracting by decide)]
  rfl
theorem lhs_axis1 (i : S5000x64.Idx) (q : dot_S5000x128_S128x64_S5000x64_1_0_0_1_n_n.contr.Idx) :
    (dot_S5000x128_S128x64_S5000x64_1_0_0_1_n_n.lhsIdx i q 1).val = (q ⟨0, by decide⟩).val :=
  dot_S5000x128_S128x64_S5000x64_1_0_0_1_n_n.lhsIdx_val_of_single rfl i q
theorem rhs_axis0 (i : S5000x64.Idx) (q : dot_S5000x128_S128x64_S5000x64_1_0_0_1_n_n.contr.Idx) :
    (dot_S5000x128_S128x64_S5000x64_1_0_0_1_n_n.rhsIdx i q 0).val = (q ⟨0, by decide⟩).val :=
  dot_S5000x128_S128x64_S5000x64_1_0_0_1_n_n.rhsIdx_val_of_single rfl i q
theorem rhs_axis1 (i : S5000x64.Idx) (q : dot_S5000x128_S128x64_S5000x64_1_0_0_1_n_n.contr.Idx) :
    (dot_S5000x128_S128x64_S5000x64_1_0_0_1_n_n.rhsIdx i q 1).val = (i 1).val := by
  unfold DotDims.rhsIdx
  rw [dif_neg (show ¬(1 : Fin S128x64.rank) ∈ dot_S5000x128_S128x64_S5000x64_1_0_0_1_n_n.rhsBatch by decide), dif_pos (show (1 : Fin S128x64.rank) ∈ dot_S5000x128_S128x64_S5000x64_1_0_0_1_n_n.rhsNonContracting by decide)]
  rfl

/-- A block of rows times a 128 × 64 matrix, onto zeros, at row `p` and column `q`: the sum over the 128 shared features. -/
theorem blockProduct_apply {φ₁ φ₂ : FTy} (l : FVec Ideal S5000x128 φ₁) (r : FVec Ideal S128x64 φ₂) (p : Fin 5000) (q : Fin 64) :
    matmul dot_S5000x128_S128x64_S5000x64_1_0_0_1_n_n none l r (constant S5000x64 .f32 0x00000000#32) (ix2 p q)
      = ∑ k : Fin 128, l (ix2 p k) * r (ix2 k q) := by
  simp only [matmul]
  rw [Ideal.matmul_constant_zero_apply, ← Equiv.sum_comp (contrEquiv1 dot_S5000x128_S128x64_S5000x64_1_0_0_1_n_n 128 rfl rfl).symm]
  refine Finset.sum_congr rfl fun k _ => ?_
  have hk := contrEquiv1_symm_val dot_S5000x128_S128x64_S5000x64_1_0_0_1_n_n 128 rfl rfl k
  have el : dot_S5000x128_S128x64_S5000x64_1_0_0_1_n_n.lhsIdx (ix2 p q) ((contrEquiv1 dot_S5000x128_S128x64_S5000x64_1_0_0_1_n_n 128 rfl rfl).symm k) = ix2 p k := funext fun a => Fin.ext (by
    match a with
    | ⟨0, _⟩ => exact lhs_axis0 _ _
    | ⟨1, _⟩ => exact (lhs_axis1 _ _).trans hk)
  have er : dot_S5000x128_S128x64_S5000x64_1_0_0_1_n_n.rhsIdx (ix2 p q) ((contrEquiv1 dot_S5000x128_S128x64_S5000x64_1_0_0_1_n_n 128 rfl rfl).symm k) = ix2 k q := funext fun a => Fin.ext (by
    match a with
    | ⟨0, _⟩ => exact (rhs_axis0 _ _).trans hk
    | ⟨1, _⟩ => exact rhs_axis1 _ _)
  rw [el, er]

/-! ## The layout operations the body applies, at an index -/

/-- A weight matrix, its format changed and transposed, at `(k, q)` is the matrix at `(q, k)`. -/
theorem weightT_apply (w : Vec Ideal S64x128 .f32) (k : Fin 128) (q : Fin 64) :
    (transpose S128x64 [1, 0] (truncf (F := Ideal) .bf16 w bitsLt_bf16_f32) transposes_S64x128_p1_0_S128x64 (ix2 k q) : EReal) = w (ix2 q k) :=
  transpose_ix2_apply (truncf (F := Ideal) .bf16 w bitsLt_bf16_f32) transposes_S64x128_p1_0_S128x64 k q

/-- The bias row broadcast down the block's rows, at `(p, q)`, is the row's entry `q`. -/
theorem biasRows_apply (b : Vec Ideal S1x64 .f32) (p : Fin 5000) (q : Fin 64) :
    broadcastTo S5000x64 b broadcasts_S1x64_S5000x64 (ix2 p q) = b (ix2 (0 : Fin 1) q) := by
  exact broadcastTo_apply b broadcasts_S1x64_S5000x64 (ix2 p q) (ix2 (0 : Fin 1) q) fun a => by
    match a with
    | ⟨0, _⟩ => show (0 : Nat) = if (1 : Nat) = 1 then 0 else p.val; rw [if_pos rfl]
    | ⟨1, _⟩ => show q.val = if (64 : Nat) = 1 then 0 else q.val; rw [if_neg (by decide)]

/-! ## The stored value at an entry -/

/-- What the body stores at row `p`, column `q` of its output block, from the blocks it loaded. -/
theorem stored_apply (mean h : Vec Ideal S5000x128 .f32) (wl wr : Vec Ideal S64x128 .f32) (b : Vec Ideal S1x64 .f32)
    (p : Fin 5000) (q : Fin 64) :
    k1_pay1 mean h wl wr b (ix2 p q)
      = (∑ k : Fin 128, mean (ix2 p k) * wl (ix2 q k) + ∑ k : Fin 128, h (ix2 p k) * wr (ix2 q k)) + b (ix2 (0 : Fin 1) q) := by
  unfold k1_pay1
  simp only [addf_apply, shapeCast_self]
  rw [blockProduct_apply, blockProduct_apply, biasRows_apply]
  simp only [truncf_apply]
  have el : (∑ k : Fin 128, mean (ix2 p k) * (transpose S128x64 [1, 0] (truncf (F := Ideal) .bf16 wl bitsLt_bf16_f32) transposes_S64x128_p1_0_S128x64 (ix2 k q) : EReal))
      = ∑ k : Fin 128, mean (ix2 p k) * wl (ix2 q k) :=
    Finset.sum_congr rfl fun k _ => congrArg (mean (ix2 p k) * ·) (weightT_apply wl k q)
  have er : (∑ k : Fin 128, h (ix2 p k) * (transpose S128x64 [1, 0] (truncf (F := Ideal) .bf16 wr bitsLt_bf16_f32) transposes_S64x128_p1_0_S128x64 (ix2 k q) : EReal))
      = ∑ k : Fin 128, h (ix2 p k) * wr (ix2 q k) :=
    Finset.sum_congr rfl fun k _ => congrArg (h (ix2 p k) * ·) (weightT_apply wr k q)
  exact congrArg₂ (· + ·) (congrArg₂ (· + ·) el er) rfl

end Cert.KernelIdeal.Layer2

end
-- ==== Proof.Layer2Array.lean ====
/-
  Layer 2's output array after its region, as ONE function of the five arrays the region reads.

  Again twenty points; point `t` reads rows `5000 t … 5000 t + 4999` of the neighbour means of the hidden layer and of the
  hidden layer itself (128 features), the two 64 × 128 weight matrices and the bias row whole, and writes the same rows of
  the 64-feature output. An entry depends on one row of each row block and one row of each weight matrix, so block `t` of
  the output is block `t` of the whole-array function `output` below; the blocks tile the 100000 rows.
-/
import proofs.«130933_j7172595384376_1_alg».proof.Proof.Gen.KernelIdeal.Frame
import proofs.«130933_j7172595384376_1_alg».proof.Proof.Layer2Body
import Idealize.ShloMosaic.Lib.Pipeline.Value

set_option maxRecDepth 16384

noncomputable section

namespace Cert.KernelIdeal.Layer2

open Cert.KernelIdeal Cert.KernelIdeal.Gen
open Idealize.ShloMosaic Idealize.ShloMosaic.TcCoe Idealize.ShloMosaic.ValueIdx Idealize.SL.Sem
open Idealize.ShloMosaic.Pipeline (Dat)
open scoped BigOperators

/-- The output layer at node `i 0`, feature `i 1`: `(mean · W_lᵀ + h · W_rᵀ) + b`, the sums over the 128 hidden features. -/
def output (mean h : S100000x128.Idx → EReal) (wl : S64x128.Idx → EReal) (b : S1x64.Idx → EReal) (wr : S64x128.Idx → EReal) :
    S100000x64.Idx → EReal := fun i =>
  (∑ k : Fin 128, mean (ix2 (⟨(i 0).val, (i 0).isLt⟩ : Fin 100000) k) * wl (ix2 (⟨(i 1).val, (i 1).isLt⟩ : Fin 64) k)
      + ∑ k : Fin 128, h (ix2 (⟨(i 0).val, (i 0).isLt⟩ : Fin 100000) k) * wr (ix2 (⟨(i 1).val, (i 1).isLt⟩ : Fin 64) k))
    + b (ix2 (0 : Fin 1) (⟨(i 1).val, (i 1).isLt⟩ : Fin 64))

variable (V : (c : Dev nD) → (b : Ref sig .tc) → Buf (Elt Ideal) ((c : Thread nD τ).loc b))

theorem hz : (![0, 0] : Fin 2 → Nat) = fun _ => 0 := funext fun a => by fin_cases a <;> rfl

/-- The printed index maps over the grid: the two row-block windows move with the output's, the weights and the bias
    stay at block `(0, 0)`, and the output's row-block index is below twenty. -/
theorem blockIndices : ∀ t : Fin cfg1.N, win1_0.index t (0 : Fin 2) = win1_5.index t (0 : Fin 2) ∧ win1_0.index t (1 : Fin 2) = 0
    ∧ win1_1.index t (0 : Fin 2) = win1_5.index t (0 : Fin 2) ∧ win1_1.index t (1 : Fin 2) = 0
    ∧ win1_2.index t (0 : Fin 2) = 0 ∧ win1_2.index t (1 : Fin 2) = 0
    ∧ win1_3.index t (0 : Fin 2) = 0 ∧ win1_3.index t (1 : Fin 2) = 0
    ∧ win1_4.index t (0 : Fin 2) = 0 ∧ win1_4.index t (1 : Fin 2) = 0
    ∧ win1_5.index t (0 : Fin 2) < 20 ∧ win1_5.index t (1 : Fin 2) = 0 :=
  (by decide +kernel : ∀ t : Fin grid1.N, _)

/-- Every row block of the output is some point's. -/
theorem blockOnto : ∀ q0 : Fin 20, ∃ t : Fin cfg1.N, win1_5.index t = ![q0.val, 0] :=
  (by decide +kernel : ∀ q0 : Fin 20, ∃ t : Fin grid1.N, win1_5.index t = ![q0.val, 0])

/-- What point `t` writes back is block `t` of `output` of the arrays as the region finds them. -/
theorem flushed_eq (c : Dev nD) (t : Fin cfg1.N) :
    (dat1 V c).flushed 5 t = ((cfg1.win 5).blk t).view.read (Elt Ideal)
      (output (V c main_v37) (V c main_v25) (V c main_arg5) (V c main_v38) (V c main_arg7)) := by
  show (cfg1.win 5).cut (grid1.coords t) ((dat1 V c).after 5 t) = _
  rw [after1_5]
  unfold out1_5
  rw [View.canon_unit_zero hz]
  simp only [View.ld_unit_zero (S := S5000x128) hz, View.ld_unit_zero (S := S64x128) hz, View.ld_unit_zero (S := S1x64) hz]
  obtain ⟨f00, f01, f10, f11, f20, f21, f30, f31, f40, f41, f50, f51⟩ := blockIndices t
  refine funext fun (j : S5000x64.Idx) => ?_
  obtain ⟨p, q, rfl⟩ : ∃ (p : Fin 5000) (q : Fin 64), j = ix2 p q := ⟨j 0, j 1, eq_ix2 j⟩
  refine (stored_apply (iblk1 V c 0 t) (iblk1 V c 1 t) (iblk1 V c 2 t) (iblk1 V c 4 t) (iblk1 V c 3 t) p q).trans ?_
  rw [View.read_apply]
  unfold output
  have hp : p.val < 5000 := p.isLt
  have hq : q.val < 64 := q.isLt
  have e0 : ∀ k : Fin 128, iblk1 V c 0 t (ix2 p k) = V c main_v37 (ix2 (⟨((((cfg1.win 5).blk t).view.emb (ix2 p q)) 0).val, ((((cfg1.win 5).blk t).view.emb (ix2 p q)) 0).isLt⟩ : Fin 100000) k) := fun k => by
    unfold iblk1; rw [View.read_apply]
    show V c main_v37 _ = V c main_v37 _
    refine congrArg _ (funext fun a => Fin.ext ?_)
    have hk : k.val < 128 := k.isLt
    match a with
    | ⟨0, _⟩ => show win1_0.index t (0 : Fin 2) * 5000 + 1 * p.val = win1_5.index t (0 : Fin 2) * 5000 + 1 * p.val; omega
    | ⟨1, _⟩ => show win1_0.index t (1 : Fin 2) * 128 + 1 * k.val = k.val; omega
  have e1 : ∀ k : Fin 128, iblk1 V c 1 t (ix2 p k) = V c main_v25 (ix2 (⟨((((cfg1.win 5).blk t).view.emb (ix2 p q)) 0).val, ((((cfg1.win 5).blk t).view.emb (ix2 p q)) 0).isLt⟩ : Fin 100000) k) := fun k => by
    unfold iblk1; rw [View.read_apply]
    show V c main_v25 _ = V c main_v25 _
    refine congrArg _ (funext fun a => Fin.ext ?_)
    have hk : k.val < 128 := k.isLt
    match a with
    | ⟨0, _⟩ => show win1_1.index t (0 : Fin 2) * 5000 + 1 * p.val = win1_5.index t (0 : Fin 2) * 5000 + 1 * p.val; omega
    | ⟨1, _⟩ => show win1_1.index t (1 : Fin 2) * 128 + 1 * k.val = k.val; omega
  have e2 : ∀ k : Fin 128, iblk1 V c 2 t (ix2 q k) = V c main_arg5 (ix2 (⟨((((cfg1.win 5).blk t).view.emb (ix2 p q)) 1).val, ((((cfg1.win 5).blk t).view.emb (ix2 p q)) 1).isLt⟩ : Fin 64) k) := fun k => by
    unfold iblk1; rw [View.read_apply]
    show V c main_arg5 _ = V c main_arg5 _
    refine congrArg _ (funext fun a => Fin.ext ?_)
    have hk : k.val < 128 := k.isLt
    match a with
    | ⟨0, _⟩ => show win1_2.index t (0 : Fin 2) * 64 + 1 * q.val = win1_5.index t (1 : Fin 2) * 64 + 1 * q.val; omega
    | ⟨1, _⟩ => show win1_2.index t (1 : Fin 2) * 128 + 1 * k.val = k.val; omega
  have e4 : ∀ k : Fin 128, iblk1 V c 4 t (ix2 q k) = V c main_arg7 (ix2 (⟨((((cfg1.win 5).blk t).view.emb (ix2 p q)) 1).val, ((((cfg1.win 5).blk t).view.emb (ix2 p q)) 1).isLt⟩ : Fin 64) k) := fun k => by
    unfold iblk1; rw [View.read_apply]
    show V c main_arg7 _ = V c main_arg7 _
    refine congrArg _ (funext fun a => Fin.ext ?_)
    have hk : k.val < 128 := k.isLt
    match a with
    | ⟨0, _⟩ => show win1_4.index t (0 : Fin 2) * 64 + 1 * q.val = win1_5.index t (1 : Fin 2) * 64 + 1 * q.val; omega
    | ⟨1, _⟩ => show win1_4.index t (1 : Fin 2) * 128 + 1 * k.val = k.val; omega
  have e3 : iblk1 V c 3 t (ix2 (0 : Fin 1) q) = V c main_v38 (ix2 (0 : Fin 1) (⟨((((cfg1.win 5).blk t).view.emb (ix2 p q)) 1).val, ((((cfg1.win 5).blk t).view.emb (ix2 p q)) 1).isLt⟩ : Fin 64)) := by
    unfold iblk1; rw [View.read_apply]
    show V c main_v38 _ = V c main_v38 _
    refine congrArg _ (funext fun a => Fin.ext ?_)
    match a with
    | ⟨0, _⟩ => show win1_3.index t (0 : Fin 2) * 1 + 1 * 0 = 0; omega
    | ⟨1, _⟩ => show win1_3.index t (1 : Fin 2) * 64 + 1 * q.val = win1_5.index t (1 : Fin 2) * 64 + 1 * q.val; omega
  exact congrArg₂ (· + ·) (congrArg₂ (· + ·)
      (Finset.sum_congr rfl fun k _ => congrArg₂ (· * ·) (e0 k) (e2 k))
      (Finset.sum_congr rfl fun k _ => congrArg₂ (· * ·) (e1 k) (e4 k))) e3

/-- An index of the output array is in point `t`'s block iff each coordinate is in the block's range on its axis. -/
theorem mem_blk (t : Fin cfg1.N) (i : S100000x64.Idx) :
    i ∈ ((cfg1.win 5).blk t).view.set ↔ ∀ a : Fin 2, win1_5.index t a * S5000x64.size a ≤ (i a).val ∧ (i a).val < win1_5.index t a * S5000x64.size a + S5000x64.size a := by
  show i ∈ ((View.whole main_v39).slice (win1_5.rect t)).set ↔ _
  rw [View.set_slice_whole, Rect.mem_set_unit]
  exact Iff.rfl

/-- The twenty row blocks tile the array: row `r` is in the block of point `r / 5000`. -/
theorem covered (i : S100000x64.Idx) : ∃ t : Fin cfg1.N, (cfg1.win 5).flush t = true ∧ i ∈ ((cfg1.win 5).blk t).view.set := by
  have hi0 : (i 0).val < 100000 := (i 0).isLt
  have hi1 : (i 1).val < 64 := (i 1).isLt
  obtain ⟨t, ht⟩ := blockOnto ⟨(i 0).val / 5000, by omega⟩
  have q0 : win1_5.index t (0 : Fin 2) = (i 0).val / 5000 := congrFun ht 0
  have q1 : win1_5.index t (1 : Fin 2) = 0 := congrFun ht 1
  refine ⟨t, flush1_5 t, ?_⟩
  rw [mem_blk]
  intro a
  match a with
  | ⟨0, _⟩ => show win1_5.index t (0 : Fin 2) * 5000 ≤ (i 0).val ∧ (i 0).val < win1_5.index t (0 : Fin 2) * 5000 + 5000; omega
  | ⟨1, _⟩ => show win1_5.index t (1 : Fin 2) * 64 ≤ (i 1).val ∧ (i 1).val < win1_5.index t (1 : Fin 2) * 64 + 64; omega

/-- The output array after the region: `output` of the five arrays as the region finds them. -/
theorem final (c : Dev nD) : (dat1 V c).arrAt 5 cfg1.N
    = output (V c main_v37) (V c main_v25) (V c main_arg5) (V c main_v38) (V c main_arg7) :=
  (dat1 V c).arrAt_eq_of_cover 5 _ (fun t _ => flushed_eq V c t) (covered)

end Cert.KernelIdeal.Layer2

end
-- ==== Proof.KernelValue.lean ====
/-
  The kernel program's result as ONE function of its eight argument arrays.

  Region 0 is entered with the neighbour mean of the node features and leaves the hidden layer; the host then takes the
  neighbour mean of the hidden layer, and region 1 leaves the output layer in the result buffer. Composing what each region
  finds on entry with what it leaves gives the result buffer after the run.
-/
import proofs.«130933_j7172595384376_1_alg».proof.Proof.KernelRun
import proofs.«130933_j7172595384376_1_alg».proof.Proof.KernelHost
import proofs.«130933_j7172595384376_1_alg».proof.Proof.Layer1Array
import proofs.«130933_j7172595384376_1_alg».proof.Proof.Layer2Array

set_option maxRecDepth 16384

noncomputable section

namespace Cert.KernelIdeal.Whole

open Cert.KernelIdeal Cert.KernelIdeal.Gen Cert.KernelIdeal.HostSide
open Idealize.ShloMosaic Idealize.ShloMosaic.TcCoe Idealize.SL.Sem

/-- The hidden layer from the node features, the edge list and the first layer's parameters. -/
def hiddenOf (x : (⟨S100000x64, .f32⟩ : BufTy).Contents (Elt Ideal)) (e : (⟨S2x1280000, .i32⟩ : BufTy).Contents (Elt Ideal))
    (wl : (⟨S128x64, .f32⟩ : BufTy).Contents (Elt Ideal)) (b : (⟨S128, .f32⟩ : BufTy).Contents (Elt Ideal))
    (wr : (⟨S128x64, .f32⟩ : BufTy).Contents (Elt Ideal)) : S100000x128.Idx → EReal :=
  Layer1.hidden (mean64 x (sources e) (dests e) (invDegree (dests e))) x wl (shapeCast _ b shapeCasts_S128_S1x128) wr

/-- The output layer from the hidden layer, the edge list and the second layer's parameters. -/
def outputOf (h : S100000x128.Idx → EReal) (e : (⟨S2x1280000, .i32⟩ : BufTy).Contents (Elt Ideal))
    (wl : (⟨S64x128, .f32⟩ : BufTy).Contents (Elt Ideal)) (b : (⟨S64, .f32⟩ : BufTy).Contents (Elt Ideal))
    (wr : (⟨S64x128, .f32⟩ : BufTy).Contents (Elt Ideal)) : S100000x64.Idx → EReal :=
  Layer2.output (mean128 h (sources e) (dests e) (invDegree (dests e))) h wl (shapeCast _ b shapeCasts_S64_S1x64) wr

variable (m : (ℓ : Loc nD τ sig) → Buf (Elt Ideal) ℓ) (ρ : Dev nD → PrngReg)

/-- Region 0 leaves the hidden layer in its output array. -/
theorem exit0 (c : Dev nD) : W2 m ρ c (Proc.devRef .tc main_v25)
    = hiddenOf (m ((c : Thread nD τ).loc main_arg0)) (m ((c : Thread nD τ).loc main_arg1)) (m ((c : Thread nD τ).loc main_arg2)) (m ((c : Thread nD τ).loc main_arg3)) (m ((c : Thread nD τ).loc main_arg4)) := by
  refine (W2_arr m ρ c 5).trans ?_
  rw [Layer1.final (V1 m ρ) c, entry0_mean, entry0_x, entry0_wl, entry0_b, entry0_wr]
  rfl

/-- Region 1 leaves the output layer in the result buffer. -/
theorem exit1 (c : Dev nD) : W4 m ρ c (Proc.devRef .tc main_v39)
    = outputOf (hiddenOf (m ((c : Thread nD τ).loc main_arg0)) (m ((c : Thread nD τ).loc main_arg1)) (m ((c : Thread nD τ).loc main_arg2)) (m ((c : Thread nD τ).loc main_arg3)) (m ((c : Thread nD τ).loc main_arg4))) (m ((c : Thread nD τ).loc main_arg1)) (m ((c : Thread nD τ).loc main_arg5)) (m ((c : Thread nD τ).loc main_arg6)) (m ((c : Thread nD τ).loc main_arg7)) := by
  refine (W4_arr m ρ c 5).trans ?_
  rw [Layer2.final (V3 m ρ) c, entry1_mean, entry1_h, entry1_wl, entry1_b, entry1_wr, exit0]
  rfl

/-- The run, read: the result buffer at the two layers composed, the arguments unchanged. -/
theorem run : θ_run defs (onTc (τ := τ) (main (F := Ideal))) ⟨m, fun _ => 0, ρ⟩ (fun r => ∀ c : Dev nD,
      r.2.mem ((c.tc : Thread nD τ).loc main_v39)
        = outputOf (hiddenOf (m ((c : Thread nD τ).loc main_arg0)) (m ((c : Thread nD τ).loc main_arg1)) (m ((c : Thread nD τ).loc main_arg2)) (m ((c : Thread nD τ).loc main_arg3)) (m ((c : Thread nD τ).loc main_arg4))) (m ((c : Thread nD τ).loc main_arg1)) (m ((c : Thread nD τ).loc main_arg5)) (m ((c : Thread nD τ).loc main_arg6)) (m ((c : Thread nD τ).loc main_arg7))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)) :=
  (θ_run defs _ _).mono (fun r h c => ⟨(h c).1.trans (exit1 m ρ c), (h c).2⟩) (Cert.KernelIdeal.Named.run m ρ)

end Cert.KernelIdeal.Whole

end
-- ==== Proof.MeanLaw.lean ====
/-
  The one algebraic law this certificate rests on, on the extended reals.

  A neighbour mean is a sum of feature rows divided by a neighbour count `c` that is first raised to at least one.
  One program divides the sum by `max c 1`; the other multiplies it by the reciprocal `1 / max c 1`, computed once.
  Division at the ideal instance is `x * y⁻¹` whenever `y ≠ 0`, and `max c 1 ≥ 1 > 0` whatever `c` is (a count, an
  infinity), so the two agree for EVERY extended real numerator: no finiteness of the summed features is used.
-/
import Idealize.ShloMosaic.PureOps.Ideal
import Idealize.ShloMosaic.PureOps.Ideal.Laws
import Idealize.ShloMosaic.Lib.IdealHost

noncomputable section

namespace Cert.MeanLaw

open Idealize.ShloMosaic

/-- A quantity raised to at least one is not zero. -/
theorem max_one_ne_zero (c : EReal) : max c 1 ≠ 0 :=
  ne_of_gt (lt_of_lt_of_le zero_lt_one (le_max_right c 1))

/-- Off a zero divisor, multiplying by the reciprocal is dividing: both are `a * c⁻¹`. -/
theorem mul_one_div (a c : EReal) (hc : c ≠ 0) : a * Ideal.div 1 c = Ideal.div a c := by
  unfold Ideal.div
  rw [if_neg hc, if_neg hc, one_mul]

/-- The same with the divisor a raised count. -/
theorem mul_one_div_max (a c : EReal) : a * Ideal.div 1 (max c 1) = Ideal.div a (max c 1) :=
  mul_one_div a _ (max_one_ne_zero c)

/-- The law as the two programs spell it: `1.0` is the f32 pattern `0x3F800000`. -/
theorem mul_one_div_max_bits (a c : EReal) :
    a * Ideal.div (Ideal.ofBits .f32 0x3F800000#32) (max c (Ideal.ofBits .f32 0x3F800000#32))
      = Ideal.div a (max c (Ideal.ofBits .f32 0x3F800000#32)) := by
  rw [Ideal.ofBits_one_f32]
  exact mul_one_div_max a c

end Cert.MeanLaw

end
-- ==== Proof.Bridge.lean ====
/-
  The kernel program's result and the reference's are one function of the eight argument arrays.

  Layer by layer. (1) The neighbour mean: the kernel multiplies the summed neighbour rows by `1 / max (degree, 1)`, the
  reference divides them by `max (degree, 1)`; the gather, the scatter-add and the degree count are the same operations on the
  same indices in both, and the two spellings agree on every extended real because the divisor is never zero. (2) The
  linear layer: both are `mean · W_lᵀ + x · W_rᵀ + b` entry by entry; the kernel adds the bias last, the reference adds it
  between the two products, and addition of extended reals is commutative and associative. The first layer ends in the
  positive part on both sides; the second takes the neighbour mean of the first.
-/
import proofs.«130933_j7172595384376_1_alg».proof.Proof.Gen.ReferenceIdeal.Read
import proofs.«130933_j7172595384376_1_alg».proof.Proof.KernelValue
import proofs.«130933_j7172595384376_1_alg».proof.Proof.MeanLaw
import Idealize.ShloMosaic.Lib.ValueIdx
import Idealize.ShloMosaic.Lib.Pipeline.Value
import Idealize.ShloMosaic.PureOps.Ideal.Laws

set_option maxRecDepth 16384

noncomputable section

namespace Cert.Bridge

open Cert.ReferenceIdeal Cert.ReferenceIdeal.Gen Cert.ReferenceIdeal.Read
open Idealize.ShloMosaic Idealize.ShloMosaic.TcCoe Idealize.ShloMosaic.ValueIdx
open scoped BigOperators

/-! ## The neighbour mean -/

/-- A per-node column broadcast along the 64 features reads, at `(r, j)`, the column at `r`. -/
theorem column64_apply (y : FVec Ideal S100000x1 .f32) (i : S100000x64.Idx) :
    broadcastInDim S100000x64 ![0, 1] bcast_S100000x1_S100000x64_0_1 y i = y (idx_main_v20 i) :=
  broadcastInDim_apply _ bcast_S100000x1_S100000x64_0_1 y i (idx_main_v20 i) (fun a => match a with
    | ⟨0, _⟩ => by show (i 0).val = if (100000 : Nat) = 1 then 0 else (i 0).val; rw [if_neg (by decide)]
    | ⟨1, _⟩ => by show 0 = if (1 : Nat) = 1 then 0 else (i 1).val; rw [if_pos rfl])

/-- The law over ANY per-node count `C`: the reciprocal of the raised count, broadcast along the 64 features and multiplied
    in, is the division by the raised count: it holds whatever the count is, so it is stated for any. -/
theorem scaled64_of (S : FVec Ideal S100000x64 .f32) (C ONE : FVec Ideal S100000x1 .f32)
    (hONE : ∀ j, ONE j = Ideal.ofBits .f32 0x3F800000#32) :
    mulf (F := Ideal) (φ := .f32) S (broadcastInDim S100000x64 ![0, 1] bcast_S100000x1_S100000x64_0_1
        (Host.divf (F := Ideal) (φ := .f32) ONE (maximumf (F := Ideal) (φ := .f32) C ONE)))
      = Host.divf (F := Ideal) (φ := .f32) S (broadcastInDim S100000x64 ![0, 1] bcast_S100000x1_S100000x64_0_1
          (maximumf (F := Ideal) (φ := .f32) C ONE)) := by
  funext i
  have h1 : mulf (F := Ideal) (φ := .f32) S (broadcastInDim S100000x64 ![0, 1] bcast_S100000x1_S100000x64_0_1
        (Host.divf (F := Ideal) (φ := .f32) ONE (maximumf (F := Ideal) (φ := .f32) C ONE))) i
      = S i * Ideal.div (ONE (idx_main_v20 i)) (max (C (idx_main_v20 i)) (ONE (idx_main_v20 i))) := by
    rw [mulf_apply, column64_apply]; rfl
  have h2 : Host.divf (F := Ideal) (φ := .f32) S (broadcastInDim S100000x64 ![0, 1] bcast_S100000x1_S100000x64_0_1
          (maximumf (F := Ideal) (φ := .f32) C ONE)) i
      = Ideal.div (S i) (max (C (idx_main_v20 i)) (ONE (idx_main_v20 i))) := by
    show Ideal.div (S i) (broadcastInDim S100000x64 ![0, 1] bcast_S100000x1_S100000x64_0_1 (maximumf (F := Ideal) (φ := .f32) C ONE) i) = _
    rw [column64_apply]; rfl
  rw [h1, h2, hONE]
  exact Cert.MeanLaw.mul_one_div_max_bits (S i) (C (idx_main_v20 i))

/-- The instance at the degree count the reference computes. -/
theorem scaled64 (S : FVec Ideal S100000x64 .f32) (e : (⟨S2x1280000, .i32⟩ : BufTy).Contents (Elt Ideal)) :
    mulf (F := Ideal) (φ := .f32) S (broadcastInDim S100000x64 ![0, 1] bcast_S100000x1_S100000x64_0_1
        (Host.divf (F := Ideal) (φ := .f32) (val_main_v18 (F := Ideal)) (val_main_v19 (F := Ideal) e) : FVec Ideal S100000x1 .f32))
      = Host.divf (F := Ideal) (φ := .f32) S (val_main_v20 (F := Ideal) e) :=
  scaled64_of S (val_main_v17 (F := Ideal) e) (val_main_v18 (F := Ideal)) (fun j => by rw [val_main_v18_apply, val_main_cst_3_apply]; rfl)

/-- A per-node column broadcast along the 128 features reads, at `(r, j)`, the column at `r`. -/
theorem column128_apply (y : FVec Ideal S100000x1 .f32) (i : S100000x128.Idx) :
    broadcastInDim S100000x128 ![0, 1] bcast_S100000x1_S100000x128_0_1 y i = y (idx_main_v47 i) :=
  broadcastInDim_apply _ bcast_S100000x1_S100000x128_0_1 y i (idx_main_v47 i) (fun a => match a with
    | ⟨0, _⟩ => by show (i 0).val = if (100000 : Nat) = 1 then 0 else (i 0).val; rw [if_neg (by decide)]
    | ⟨1, _⟩ => by show 0 = if (1 : Nat) = 1 then 0 else (i 1).val; rw [if_pos rfl])

/-- The law over ANY per-node count `C`: the reciprocal of the raised count, broadcast along the 128 features and multiplied
    in, is the division by the raised count: it holds whatever the count is, so it is stated for any. -/
theorem scaled128_of (S : FVec Ideal S100000x128 .f32) (C ONE : FVec Ideal S100000x1 .f32)
    (hONE : ∀ j, ONE j = Ideal.ofBits .f32 0x3F800000#32) :
    mulf (F := Ideal) (φ := .f32) S (broadcastInDim S100000x128 ![0, 1] bcast_S100000x1_S100000x128_0_1
        (Host.divf (F := Ideal) (φ := .f32) ONE (maximumf (F := Ideal) (φ := .f32) C ONE)))
      = Host.divf (F := Ideal) (φ := .f32) S (broadcastInDim S100000x128 ![0, 1] bcast_S100000x1_S100000x128_0_1
          (maximumf (F := Ideal) (φ := .f32) C ONE)) := by
  funext i
  have h1 : mulf (F := Ideal) (φ := .f32) S (broadcastInDim S100000x128 ![0, 1] bcast_S100000x1_S100000x128_0_1
        (Host.divf (F := Ideal) (φ := .f32) ONE (maximumf (F := Ideal) (φ := .f32) C ONE))) i
      = S i * Ideal.div (ONE (idx_main_v47 i)) (max (C (idx_main_v47 i)) (ONE (idx_main_v47 i))) := by
    rw [mulf_apply, column128_apply]; rfl
  have h2 : Host.divf (F := Ideal) (φ := .f32) S (broadcastInDim S100000x128 ![0, 1] bcast_S100000x1_S100000x128_0_1
          (maximumf (F := Ideal) (φ := .f32) C ONE)) i
      = Ideal.div (S i) (max (C (idx_main_v47 i)) (ONE (idx_main_v47 i))) := by
    show Ideal.div (S i) (broadcastInDim S100000x128 ![0, 1] bcast_S100000x1_S100000x128_0_1 (maximumf (F := Ideal) (φ := .f32) C ONE) i) = _
    rw [column128_apply]; rfl
  rw [h1, h2, hONE]
  exact Cert.MeanLaw.mul_one_div_max_bits (S i) (C (idx_main_v47 i))

/-- The instance at the degree count the reference computes. -/
theorem scaled128 (S : FVec Ideal S100000x128 .f32) (e : (⟨S2x1280000, .i32⟩ : BufTy).Contents (Elt Ideal)) :
    mulf (F := Ideal) (φ := .f32) S (broadcastInDim S100000x128 ![0, 1] bcast_S100000x1_S100000x128_0_1
        (Host.divf (F := Ideal) (φ := .f32) (val_main_v45 (F := Ideal)) (val_main_v46 (F := Ideal) e) : FVec Ideal S100000x1 .f32))
      = Host.divf (F := Ideal) (φ := .f32) S (val_main_v47 (F := Ideal) e) :=
  scaled128_of S (val_main_v44 (F := Ideal) e) (val_main_v45 (F := Ideal)) (fun j => by rw [val_main_v45_apply, val_main_cst_9_apply]; rfl)

/-- The kernel's neighbour mean of the node features is the reference's. The gather, the scatter-add and the degree
    count are the same operations in both programs (unfolding their names shows it); what differs is `scaled64`. -/
theorem mean1_eq (x0 : FVec Ideal S100000x64 .f32) (e : (⟨S2x1280000, .i32⟩ : BufTy).Contents (Elt Ideal)) :
    Cert.KernelIdeal.HostSide.mean64 (F := Ideal) x0 (Cert.KernelIdeal.HostSide.sources e) (Cert.KernelIdeal.HostSide.dests e) (Cert.KernelIdeal.HostSide.invDegree (Cert.KernelIdeal.HostSide.dests e))
      = val_main_v21 (F := Ideal) x0 e :=
  (scaled64 (val_main_v13 (F := Ideal) x0 e) e)

/-- The reference's second-layer aggregation of a 128-feature array `z`: the rows of `z` at the edges' sources. -/
def gathered128 (z : FVec Ideal S100000x128 .f32) (e : (⟨S2x1280000, .i32⟩ : BufTy).Contents (Elt Ideal)) : FVec Ideal S1280000x128 .f32 :=
  Host.gather gather_S100000x128_S1280000x1_S1280000x128_1_0_n_n_0_1_1128 z (val_main_v36 (F := Ideal) e)
/-- … summed into the rows at the edges' destinations. -/
def summed128 (z : FVec Ideal S100000x128 .f32) (e : (⟨S2x1280000, .i32⟩ : BufTy).Contents (Elt Ideal)) : FVec Ideal S100000x128 .f32 :=
  Host.scatterAdd (F := Ideal) (φ := .f32) scatter_S100000x128_S1280000x1_S1280000x128_1_0_0_1 (val_main_v38 (F := Ideal)) (val_main_v39 (F := Ideal) e) (gathered128 z e)
/-- … divided by the raised degree: the reference's neighbour mean of `z`. -/
def refMean128 (z : FVec Ideal S100000x128 .f32) (e : (⟨S2x1280000, .i32⟩ : BufTy).Contents (Elt Ideal)) : FVec Ideal S100000x128 .f32 :=
  Host.divf (F := Ideal) (φ := .f32) (summed128 z e) (val_main_v47 (F := Ideal) e)

/-- The kernel's neighbour mean of a 128-feature array is the reference's second-layer mean of the same array. -/
theorem mean2_eq (z : FVec Ideal S100000x128 .f32) (e : (⟨S2x1280000, .i32⟩ : BufTy).Contents (Elt Ideal)) :
    Cert.KernelIdeal.HostSide.mean128 (F := Ideal) z (Cert.KernelIdeal.HostSide.sources e) (Cert.KernelIdeal.HostSide.dests e) (Cert.KernelIdeal.HostSide.invDegree (Cert.KernelIdeal.HostSide.dests e))
      = refMean128 z e :=
  (scaled128 (summed128 z e) e)

/-- At the hidden layer that mean is the reference's stage. -/
theorem refMean128_hidden (x0 : FVec Ideal S100000x64 .f32) (e : (⟨S2x1280000, .i32⟩ : BufTy).Contents (Elt Ideal))
    (x2 : FVec Ideal S128x64 .f32) (x3 : FVec Ideal S128 .f32) (x4 : FVec Ideal S128x64 .f32) :
    refMean128 (val_main_v30 (F := Ideal) x0 e x2 x3 x4) e = val_main_v48 (F := Ideal) x0 e x2 x3 x4 := rfl

/-! ## The linear layers

Each comparison holds for ANY neighbour-mean array `M`, so it is stated for a variable one; the reference's own stages
are the instances at its own mean. -/

/-- The reference's matrix product of ANY two operands, at an output index: the sum over the 64 shared features. -/
theorem product1_apply (l : FVec Ideal S100000x64 .f32) (r : FVec Ideal S64x128 .f32) (i : S100000x128.Idx) :
    Host.dotGeneral (F := Ideal) dot_S100000x64_S64x128_S100000x128_1_0_0_1_n_n none l r i = ∑ k : Fin 64, l (lidx_main_v23 i k) * r (ridx_main_v23 i k) := by
  simp only [Host.dotGeneral]
  rw [Ideal.dotGeneral_apply, ← Equiv.sum_comp (ValueIdx.contrEquiv1 dot_S100000x64_S64x128_S100000x128_1_0_0_1_n_n 64 rfl rfl).symm]
  refine Finset.sum_congr rfl fun k _ => ?_
  have hk := ValueIdx.contrEquiv1_symm_val dot_S100000x64_S64x128_S100000x128_1_0_0_1_n_n 64 rfl rfl k
  have el : dot_S100000x64_S64x128_S100000x128_1_0_0_1_n_n.lhsIdx i ((ValueIdx.contrEquiv1 dot_S100000x64_S64x128_S100000x128_1_0_0_1_n_n 64 rfl rfl).symm k) = lidx_main_v23 i k := funext fun a => Fin.ext (by
    match a with
    | ⟨0, _⟩ => exact lhs_main_v23_0 _ _
    | ⟨1, _⟩ => exact (lhs_main_v23_1 _ _).trans hk)
  have er : dot_S100000x64_S64x128_S100000x128_1_0_0_1_n_n.rhsIdx i ((ValueIdx.contrEquiv1 dot_S100000x64_S64x128_S100000x128_1_0_0_1_n_n 64 rfl rfl).symm k) = ridx_main_v23 i k := funext fun a => Fin.ext (by
    match a with
    | ⟨0, _⟩ => exact (rhs_main_v23_0 _ _).trans hk
    | ⟨1, _⟩ => exact rhs_main_v23_1 _ _)
  rw [el, er]

/-- The reference's matrix product of ANY two operands, at an output index: the sum over the 128 shared features. -/
theorem product2_apply (l : FVec Ideal S100000x128 .f32) (r : FVec Ideal S128x64 .f32) (i : S100000x64.Idx) :
    Host.dotGeneral (F := Ideal) dot_S100000x128_S128x64_S100000x64_1_0_0_1_n_n none l r i = ∑ k : Fin 128, l (lidx_main_v50 i k) * r (ridx_main_v50 i k) := by
  simp only [Host.dotGeneral]
  rw [Ideal.dotGeneral_apply, ← Equiv.sum_comp (ValueIdx.contrEquiv1 dot_S100000x128_S128x64_S100000x64_1_0_0_1_n_n 128 rfl rfl).symm]
  refine Finset.sum_congr rfl fun k _ => ?_
  have hk := ValueIdx.contrEquiv1_symm_val dot_S100000x128_S128x64_S100000x64_1_0_0_1_n_n 128 rfl rfl k
  have el : dot_S100000x128_S128x64_S100000x64_1_0_0_1_n_n.lhsIdx i ((ValueIdx.contrEquiv1 dot_S100000x128_S128x64_S100000x64_1_0_0_1_n_n 128 rfl rfl).symm k) = lidx_main_v50 i k := funext fun a => Fin.ext (by
    match a with
    | ⟨0, _⟩ => exact lhs_main_v50_0 _ _
    | ⟨1, _⟩ => exact (lhs_main_v50_1 _ _).trans hk)
  have er : dot_S100000x128_S128x64_S100000x64_1_0_0_1_n_n.rhsIdx i ((ValueIdx.contrEquiv1 dot_S100000x128_S128x64_S100000x64_1_0_0_1_n_n 128 rfl rfl).symm k) = ridx_main_v50 i k := funext fun a => Fin.ext (by
    match a with
    | ⟨0, _⟩ => exact (rhs_main_v50_0 _ _).trans hk
    | ⟨1, _⟩ => exact rhs_main_v50_1 _ _)
  rw [el, er]

/-- The reference's first layer over any neighbour mean `M`. -/
def refLayer1 (M x : FVec Ideal S100000x64 .f32) (wl wr : FVec Ideal S128x64 .f32) (b : FVec Ideal S128 .f32) : FVec Ideal S100000x128 .f32 :=
  maximumf (F := Ideal) (φ := .f32)
    (addf (F := Ideal) (φ := .f32)
      (addf (F := Ideal) (φ := .f32) (Host.dotGeneral (F := Ideal) (φ₁ := .f32) (φ₂ := .f32) dot_S100000x64_S64x128_S100000x128_1_0_0_1_n_n none M (val_main_v22 (F := Ideal) wl)) (val_main_v25 (F := Ideal) b))
      (Host.dotGeneral (F := Ideal) (φ₁ := .f32) (φ₂ := .f32) dot_S100000x64_S64x128_S100000x128_1_0_0_1_n_n none x (val_main_v27 (F := Ideal) wr)))
    (val_main_call0_v0 (F := Ideal))
/-- At the reference's own mean it is the reference's stage. -/
theorem refLayer1_stage (x0 : FVec Ideal S100000x64 .f32) (e : (⟨S2x1280000, .i32⟩ : BufTy).Contents (Elt Ideal)) (x2 : FVec Ideal S128x64 .f32) (x3 : FVec Ideal S128 .f32) (x4 : FVec Ideal S128x64 .f32) :
    refLayer1 (val_main_v21 (F := Ideal) x0 e) x0 x2 x4 x3 = val_main_v30 (F := Ideal) x0 e x2 x3 x4 := rfl

/-- The reference's second layer over any neighbour mean `M` and hidden layer `h`. -/
def refLayer2 (M h : FVec Ideal S100000x128 .f32) (wl wr : FVec Ideal S64x128 .f32) (b : FVec Ideal S64 .f32) : FVec Ideal S100000x64 .f32 :=
  addf (F := Ideal) (φ := .f32)
    (addf (F := Ideal) (φ := .f32) (Host.dotGeneral (F := Ideal) (φ₁ := .f32) (φ₂ := .f32) dot_S100000x128_S128x64_S100000x64_1_0_0_1_n_n none M (val_main_v49 (F := Ideal) wl)) (val_main_v52 (F := Ideal) b))
    (Host.dotGeneral (F := Ideal) (φ₁ := .f32) (φ₂ := .f32) dot_S100000x128_S128x64_S100000x64_1_0_0_1_n_n none h (val_main_v54 (F := Ideal) wr))
/-- At the reference's own mean and hidden layer it is the reference's last stage. -/
theorem refLayer2_stage (x0 : FVec Ideal S100000x64 .f32) (e : (⟨S2x1280000, .i32⟩ : BufTy).Contents (Elt Ideal)) (x2 : FVec Ideal S128x64 .f32) (x3 : FVec Ideal S128 .f32) (x4 : FVec Ideal S128x64 .f32)
    (x5 : FVec Ideal S64x128 .f32) (x6 : FVec Ideal S64 .f32) (x7 : FVec Ideal S64x128 .f32) :
    refLayer2 (val_main_v48 (F := Ideal) x0 e x2 x3 x4) (val_main_v30 (F := Ideal) x0 e x2 x3 x4) x5 x7 x6
      = val_main_v56 (F := Ideal) x0 e x2 x3 x4 x5 x6 x7 := rfl

/-- The first layer. Entry `(r, j)` is `max ((∑ k, M[r,k] · W_l[j,k] + ∑ k, x[r,k] · W_r[j,k]) + b[j]) 0` in the kernel and
    `max ((∑ k, M[r,k] · W_l[j,k] + b[j]) + ∑ k, x[r,k] · W_r[j,k]) 0` in the reference: the same three terms. -/
theorem layer1_eq (M x : FVec Ideal S100000x64 .f32) (wl wr : FVec Ideal S128x64 .f32) (b : FVec Ideal S128 .f32) :
    Cert.KernelIdeal.Layer1.hidden M x wl (shapeCast _ b Cert.KernelIdeal.Gen.shapeCasts_S128_S1x128) wr = refLayer1 M x wl wr b := by
  funext i
  unfold refLayer1 Cert.KernelIdeal.Layer1.hidden
  rw [maximumf_apply, addf_apply, addf_apply, product1_apply, product1_apply, val_main_v25_apply, val_main_v24_apply,
    val_main_call0_v0_apply, val_main_call0_cst_apply]
  have eL : ∀ k : Fin 64, lidx_main_v23 i k = ix2 (⟨(i 0).val, (i 0).isLt⟩ : Fin 100000) k := fun k => funext fun a => by
    match a with
    | ⟨0, _⟩ => rfl
    | ⟨1, _⟩ => rfl
  have eWl : ∀ k : Fin 64, val_main_v22 (F := Ideal) wl (ridx_main_v23 i k) = wl (ix2 (⟨(i 1).val, (i 1).isLt⟩ : Fin 128) k) := fun k => by
    rw [val_main_v22_apply]
    exact congrArg wl (funext fun a => by
      match a with
      | ⟨0, _⟩ => rfl
      | ⟨1, _⟩ => rfl)
  have eWr : ∀ k : Fin 64, val_main_v27 (F := Ideal) wr (ridx_main_v23 i k) = wr (ix2 (⟨(i 1).val, (i 1).isLt⟩ : Fin 128) k) := fun k => by
    rw [val_main_v27_apply]
    exact congrArg wr (funext fun a => by
      match a with
      | ⟨0, _⟩ => rfl
      | ⟨1, _⟩ => rfl)
  have hbias : shapeCast _ b Cert.KernelIdeal.Gen.shapeCasts_S128_S1x128 (ix2 (0 : Fin 1) (⟨(i 1).val, (i 1).isLt⟩ : Fin 128)) = b (idx_main_v24 (idx_main_v25 i)) :=
    shapeCast_apply b _ _ _ (by
      rewrite [Shape.rowMajor_val_one, Shape.rowMajor_val_two]
      show (i 1).val = 0 * 128 + (i 1).val
      omega)
  have hA : (∑ k : Fin 64, M (lidx_main_v23 i k) * val_main_v22 (F := Ideal) wl (ridx_main_v23 i k))
      = ∑ k : Fin 64, M (ix2 (⟨(i 0).val, (i 0).isLt⟩ : Fin 100000) k) * wl (ix2 (⟨(i 1).val, (i 1).isLt⟩ : Fin 128) k) :=
    Finset.sum_congr rfl fun k _ => by rw [eL k, eWl k]
  have hB : (∑ k : Fin 64, x (lidx_main_v23 i k) * val_main_v27 (F := Ideal) wr (ridx_main_v23 i k))
      = ∑ k : Fin 64, x (ix2 (⟨(i 0).val, (i 0).isLt⟩ : Fin 100000) k) * wr (ix2 (⟨(i 1).val, (i 1).isLt⟩ : Fin 128) k) :=
    Finset.sum_congr rfl fun k _ => by rw [eL k, eWr k]
  rw [hA, hB, hbias]
  exact congrArg (max · (Ideal.ofBits .f32 0x00000000#32)) (add_right_comm _ _ _)

/-- The second layer, without a positive part and over the 128 hidden features. -/
theorem layer2_eq (M h : FVec Ideal S100000x128 .f32) (wl wr : FVec Ideal S64x128 .f32) (b : FVec Ideal S64 .f32) :
    Cert.KernelIdeal.Layer2.output M h wl (shapeCast _ b Cert.KernelIdeal.Gen.shapeCasts_S64_S1x64) wr = refLayer2 M h wl wr b := by
  funext i
  unfold refLayer2 Cert.KernelIdeal.Layer2.output
  rw [addf_apply, addf_apply, product2_apply, product2_apply, val_main_v52_apply, val_main_v51_apply]
  have eL : ∀ k : Fin 128, lidx_main_v50 i k = ix2 (⟨(i 0).val, (i 0).isLt⟩ : Fin 100000) k := fun k => funext fun a => by
    match a with
    | ⟨0, _⟩ => rfl
    | ⟨1, _⟩ => rfl
  have eWl : ∀ k : Fin 128, val_main_v49 (F := Ideal) wl (ridx_main_v50 i k) = wl (ix2 (⟨(i 1).val, (i 1).isLt⟩ : Fin 64) k) := fun k => by
    rw [val_main_v49_apply]
    exact congrArg wl (funext fun a => by
      match a with
      | ⟨0, _⟩ => rfl
      | ⟨1, _⟩ => rfl)
  have eWr : ∀ k : Fin 128, val_main_v54 (F := Ideal) wr (ridx_main_v50 i k) = wr (ix2 (⟨(i 1).val, (i 1).isLt⟩ : Fin 64) k) := fun k => by
    rw [val_main_v54_apply]
    exact congrArg wr (funext fun a => by
      match a with
      | ⟨0, _⟩ => rfl
      | ⟨1, _⟩ => rfl)
  have hbias : shapeCast _ b Cert.KernelIdeal.Gen.shapeCasts_S64_S1x64 (ix2 (0 : Fin 1) (⟨(i 1).val, (i 1).isLt⟩ : Fin 64)) = b (idx_main_v51 (idx_main_v52 i)) :=
    shapeCast_apply b _ _ _ (by
      rewrite [Shape.rowMajor_val_one, Shape.rowMajor_val_two]
      show (i 1).val = 0 * 64 + (i 1).val
      omega)
  have hA : (∑ k : Fin 128, M (lidx_main_v50 i k) * val_main_v49 (F := Ideal) wl (ridx_main_v50 i k))
      = ∑ k : Fin 128, M (ix2 (⟨(i 0).val, (i 0).isLt⟩ : Fin 100000) k) * wl (ix2 (⟨(i 1).val, (i 1).isLt⟩ : Fin 64) k) :=
    Finset.sum_congr rfl fun k _ => by rw [eL k, eWl k]
  have hB : (∑ k : Fin 128, h (lidx_main_v50 i k) * val_main_v54 (F := Ideal) wr (ridx_main_v50 i k))
      = ∑ k : Fin 128, h (ix2 (⟨(i 0).val, (i 0).isLt⟩ : Fin 100000) k) * wr (ix2 (⟨(i 1).val, (i 1).isLt⟩ : Fin 64) k) :=
    Finset.sum_congr rfl fun k _ => by rw [eL k, eWr k]
  rw [hA, hB, hbias]
  exact add_right_comm _ _ _

/-! ## The two programs' results -/

/-- The kernel program's hidden layer is the reference's: the means agree, then the layers. -/
theorem hidden_eq (x0 : FVec Ideal S100000x64 .f32) (e : (⟨S2x1280000, .i32⟩ : BufTy).Contents (Elt Ideal)) (x2 : FVec Ideal S128x64 .f32) (x3 : FVec Ideal S128 .f32) (x4 : FVec Ideal S128x64 .f32) :
    Cert.KernelIdeal.Whole.hiddenOf x0 e x2 x3 x4 = val_main_v30 (F := Ideal) x0 e x2 x3 x4 :=
  (congrArg (fun M => Cert.KernelIdeal.Layer1.hidden M x0 x2 (shapeCast _ x3 Cert.KernelIdeal.Gen.shapeCasts_S128_S1x128) x4) (mean1_eq x0 e)).trans
    ((layer1_eq (val_main_v21 (F := Ideal) x0 e) x0 x2 x4 x3).trans (refLayer1_stage x0 e x2 x3 x4))

/-- The kernel program's result, as a function of the eight argument arrays, is the reference's last stage. -/
theorem result_eq (x0 : FVec Ideal S100000x64 .f32) (e : (⟨S2x1280000, .i32⟩ : BufTy).Contents (Elt Ideal)) (x2 : FVec Ideal S128x64 .f32) (x3 : FVec Ideal S128 .f32) (x4 : FVec Ideal S128x64 .f32)
    (x5 : FVec Ideal S64x128 .f32) (x6 : FVec Ideal S64 .f32) (x7 : FVec Ideal S64x128 .f32) :
    Cert.KernelIdeal.Whole.outputOf (Cert.KernelIdeal.Whole.hiddenOf x0 e x2 x3 x4) e x5 x6 x7
      = val_main_v56 (F := Ideal) x0 e x2 x3 x4 x5 x6 x7 :=
  (congrArg (fun h => Cert.KernelIdeal.Whole.outputOf h e x5 x6 x7) (hidden_eq x0 e x2 x3 x4)).trans
    ((congrArg (fun M => Cert.KernelIdeal.Layer2.output M (val_main_v30 (F := Ideal) x0 e x2 x3 x4) x5 (shapeCast _ x6 Cert.KernelIdeal.Gen.shapeCasts_S64_S1x64) x7)
        ((mean2_eq (val_main_v30 (F := Ideal) x0 e x2 x3 x4) e).trans (refMean128_hidden x0 e x2 x3 x4))).trans
      ((layer2_eq (val_main_v48 (F := Ideal) x0 e x2 x3 x4) (val_main_v30 (F := Ideal) x0 e x2 x3 x4) x5 x7 x6).trans
        (refLayer2_stage x0 e x2 x3 x4 x5 x6 x7)))

end Cert.Bridge

end
-- ==== Proof.lean ====
/-
  The certificate of a two-layer GraphSAGE forward pass: a Pallas kernel for each layer's dense part, with the neighbour
  aggregation on the host, against a plain jnp reference.

  Each layer is `out_i = W_l · mean_{j → i} z_j + b + W_r · z_i`, the first followed by the positive part. The neighbour mean
  divides the sum of the neighbours' rows by `max (indegree, 1)`. The kernel program computes `1 / max (indegree, 1)` once and
  multiplies both layers' sums by it, and its kernels add the bias after both matrix products; the reference divides, and
  adds the bias between the products. At the ideal instance a change of float format is the identity and every product is
  an exact sum, so the two programs differ by exactly those two rearrangements:

  * `a * (1 / c) = a / c` for `c = max (·, 1)`, true for EVERY extended real `a` because `c ≥ 1` is never zero
    (Proof/MeanLaw.lean) — so the precondition's finiteness is not used;
  * `(A + B) + c = (A + c) + B`, commutativity and associativity of the extended reals' addition (Proof/Bridge.lean).

  The frames of the two kernel programs are the generated ones. The kernel program's VALUE is read off the same launch
  with the result buffer named (Proof/KernelRun.lean), each region's output array as one function of what the region finds
  (Proof/Layer1Body.lean, Layer1Array.lean, Layer2Body.lean, Layer2Array.lean), what the host leaves for each region
  (Proof/KernelHost.lean), composed (Proof/KernelValue.lean). The reference's value is its generated run and stage-by-stage
  reading. Proof/Bridge.lean joins the two.
-/
import proofs.«130933_j7172595384376_1_alg».proof.Defs
import proofs.«130933_j7172595384376_1_alg».proof.Proof.Gen.Kernel
import proofs.«130933_j7172595384376_1_alg».proof.Proof.Gen.Kernel.Skeleton
import proofs.«130933_j7172595384376_1_alg».proof.Proof.Gen.Kernel.Launch
import proofs.«130933_j7172595384376_1_alg».proof.Proof.Gen.Kernel.Points
import proofs.«130933_j7172595384376_1_alg».proof.Proof.Gen.Kernel.Frame
import proofs.«130933_j7172595384376_1_alg».proof.Proof.Gen.KernelIdeal
import proofs.«130933_j7172595384376_1_alg».proof.Proof.Gen.KernelIdeal.Skeleton
import proofs.«130933_j7172595384376_1_alg».proof.Proof.Gen.KernelIdeal.Launch
import proofs.«130933_j7172595384376_1_alg».proof.Proof.Gen.KernelIdeal.Points
import proofs.«130933_j7172595384376_1_alg».proof.Proof.Gen.KernelIdeal.Frame
import proofs.«130933_j7172595384376_1_alg».proof.Proof.Gen.ReferenceIdeal
import proofs.«130933_j7172595384376_1_alg».proof.Proof.Gen.ReferenceIdeal.Run
import proofs.«130933_j7172595384376_1_alg».proof.Proof.Gen.ReferenceIdeal.Read
import proofs.«130933_j7172595384376_1_alg».proof.Proof.Gen.Pre_finite_inputs
import proofs.«130933_j7172595384376_1_alg».proof.Proof.KernelValue
import proofs.«130933_j7172595384376_1_alg».proof.Proof.Bridge
import Idealize.ShloMosaic.Adequacy
import Idealize.ShloMosaic.Init

noncomputable section

namespace Cert.Proof

open Idealize.ShloMosaic Idealize.SL.Sem

/-- The word-level kernel program runs, faults nowhere and leaves its arguments as launched: the generated frame. -/
theorem frame_kernel : Cert.frame_Kernel :=
  fun m ρ _ => Cert.Kernel.Gen.frame m ρ

/-- The same of the idealized kernel program. -/
theorem frame_kernelIdeal : Cert.frame_KernelIdeal :=
  fun m ρ _ => Cert.KernelIdeal.Gen.frame m ρ

/-- The reference is a host program: its frame is its generated run with the result dropped. -/
theorem frame_referenceIdeal : Cert.frame_ReferenceIdeal :=
  fun m ρ _ => (θ_run Cert.ReferenceIdeal.defs _ _).mono (fun _ h c => (h c).2) (Cert.ReferenceIdeal.Value.run (F := Ideal) m ρ)

/-- The ideal pass rewrote nothing: the idealized kernel program is the printed one read at the ideal instance. -/
theorem preserves : Cert.preserves_Kernel_KernelIdeal := trivial

/-- From memories agreeing on the arguments both programs end with the result at the two layers composed: the kernel
    program by its run read through its regions, the reference by its generated run, the two functions equal by the
    bridge. -/
theorem algebraic : Cert.algebraic_KernelIdeal_ReferenceIdeal := by
  intro m ρ m' ρ' _ hagree
  refine ⟨fun c => Cert.KernelIdeal.Whole.outputOf (Cert.KernelIdeal.Whole.hiddenOf (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))) (m ((c.tc : Thread Cert.KernelIdeal.nD Cert.KernelIdeal.τ).loc Cert.KernelIdeal.main_arg1)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)),
    Cert.KernelIdeal.Whole.run m ρ, ?_⟩
  refine (θ_run Cert.ReferenceIdeal.defs _ _).mono (fun _ h c => ⟨(h c).1.trans ?_, (h c).2⟩) (Cert.ReferenceIdeal.Value.run (F := Ideal) m' ρ')
  rw [Cert.ReferenceIdeal.Read.val_main_v56_eq, (hagree c).1, (hagree c).2.1, (hagree c).2.2.1, (hagree c).2.2.2.1, (hagree c).2.2.2.2.1,
    (hagree c).2.2.2.2.2.1, (hagree c).2.2.2.2.2.2.1, (hagree c).2.2.2.2.2.2.2]
  exact (Cert.Bridge.result_eq _ _ _ _ _ _ _ _).symm

theorem claim : Cert.Claim :=
  ⟨Cert.Kernel.Gen.facts, Cert.KernelIdeal.Gen.facts, Cert.ReferenceIdeal.Gen.facts, Cert.Pre_finite_inputs.Gen.facts,
    frame_kernel, frame_kernelIdeal, frame_referenceIdeal, preserves, algebraic⟩

end Cert.Proof

end
